-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x256 .f32) (main_arg1 : IVec S2x3200000 32) (main_arg2 : FVec F S256x64 .f32) (main_arg3 : FVec F S64 .f32) (main_arg4 : FVec F S64x40 .f32) (main_arg5 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S5000x256 : Shape := ⟨2, ![5000, 256]⟩
abbrev S5000x64 : Shape := ⟨2, ![5000, 64]⟩
abbrev S3300000x64 : Shape := ⟨2, ![3300000, 64]⟩
abbrev S1x64 : Shape := ⟨2, ![1, 64]⟩
abbrev S100000x40 : Shape := ⟨2, ![100000, 40]⟩
abbrev S5000x40 : Shape := ⟨2, ![5000, 40]⟩
abbrev S3300000x40 : Shape := ⟨2, ![3300000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 84
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x64, .f32⟩
  | .hbm, ⟨47, _⟩ => ⟨S3300000x1, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x64, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x40, .f32⟩
  | .hbm, ⟨66, _⟩ => ⟨S3300000x1, .f32⟩
  | .hbm, ⟨67, _⟩ => ⟨S_, .i32⟩
  | .hbm, ⟨68, _⟩ => ⟨S3300000, .i32⟩
  | .hbm, ⟨69, _⟩ => ⟨S3300000, .i1⟩
  | .hbm, ⟨70, _⟩ => ⟨S_, .i32⟩
  | .hbm, ⟨71, _⟩ => ⟨S3300000, .i32⟩
  | .hbm, ⟨72, _⟩ => ⟨S3300000, .i32⟩
  | .hbm, ⟨73, _⟩ => ⟨S3300000, .i32⟩
  | .hbm, ⟨74, _⟩ => ⟨S3300000x1, .i32⟩
  | .hbm, ⟨75, _⟩ => ⟨S3300000x40, .f32⟩
  | .hbm, ⟨76, _⟩ => ⟨S3300000x40, .f32⟩
  | .hbm, ⟨77, _⟩ => ⟨S3300000x40, .f32⟩
  | .hbm, ⟨78, _⟩ => ⟨S_, .f32⟩
  | .hbm, ⟨79, _⟩ => ⟨S100000x40, .f32⟩
  | .hbm, ⟨80, _⟩ => ⟨S3300000x1, .i32⟩
  | .hbm, ⟨81, _⟩ => ⟨S100000x40, .f32⟩
  | .hbm, ⟨82, _⟩ => ⟨S1x40, .f32⟩
  | .hbm, ⟨83, _⟩ => ⟨S100000x40, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x40, .f32⟩
  | .local _ .vmem, ⟨13, _⟩ => ⟨S5000x40, .f32⟩
  | .local _ .vmem, ⟨14, _⟩ => ⟨S5000x40, .f32⟩
  | .local _ .vmem, ⟨15, _⟩ => ⟨S5000x40, .f32⟩
  | .local _ .vmem, ⟨16, _⟩ => ⟨S5000x40, .f32⟩
  | .local _ .vmem, ⟨17, _⟩ => ⟨S1x40, .f32⟩
  | .local _ .vmem, ⟨18, _⟩ => ⟨S5000x40, .f32⟩
  | .local _ .vmem, ⟨19, _⟩ => ⟨S5000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x40_S64x40_0_0 : ∀ a, (![0, 0] : Fin 2 → Nat) a + S64x40.size a ≤ S64x40.size a
  h_S64x40 : 0 < S64x40.numel
  inb_S5000x40_S5000x40_0_0 : ∀ a, (![0, 0] : Fin 2 → Nat) a + S5000x40.size a ≤ S5000x40.size a
  h_S5000x40 : 0 < S5000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x256_S256x64_S5000x64_1_0_0_1_n_n_wf : DotDims.WF S5000x256 S256x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x40_S5000x40_1_0_0_1_n_n_wf : DotDims.WF S5000x64 S64x40 S5000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x40.size a ≤ S64x40.size a
  hwx2_1 : ∀ i : grid2.Coords, EltTy.bits .f32 = 32 ∨ (Rect.block (s := S64x40) S64x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S100000x40.size a
  hwx3_0 : ∀ i : grid3.Coords, EltTy.bits .f32 = 32 ∨ (Rect.block (s := S100000x40) S5000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S100000x40.size a
  hwx3_2 : ∀ i : grid3.Coords, EltTy.bits .f32 = 32 ∨ (Rect.block (s := S100000x40) S5000x40.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x64, .f32⟩
  | .hbm, ⟨47, _⟩ => ⟨S3300000x1, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x64, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x40, .f32⟩
  | .hbm, ⟨70, _⟩ => ⟨S3300000x1, .f32⟩
  | .hbm, ⟨71, _⟩ => ⟨S_, .i32⟩
  | .hbm, ⟨72, _⟩ => ⟨S3300000, .i32⟩
  | .hbm, ⟨73, _⟩ => ⟨S3300000, .i1⟩
  | .hbm, ⟨74, _⟩ => ⟨S_, .i32⟩
  | .hbm, ⟨75, _⟩ => ⟨S3300000, .i32⟩
  | .hbm, ⟨76, _⟩ => ⟨S3300000, .i32⟩
  | .hbm, ⟨77, _⟩ => ⟨S3300000, .i32⟩
  | .hbm, ⟨78, _⟩ => ⟨S3300000x1, .i32⟩
  | .hbm, ⟨79, _⟩ => ⟨S3300000x40, .f32⟩
  | .hbm, ⟨80, _⟩ => ⟨S3300000x40, .f32⟩
  | .hbm, ⟨81, _⟩ => ⟨S3300000x40, .f32⟩
  | .hbm, ⟨82, _⟩ => ⟨S_, .f32⟩
  | .hbm, ⟨83, _⟩ => ⟨S100000x40, .f32⟩
  | .hbm, ⟨84, _⟩ => ⟨S3300000x1, .i32⟩
  | .hbm, ⟨85, _⟩ => ⟨S100000x40, .f32⟩
  | .hbm, ⟨86, _⟩ => ⟨S1x40, .f32⟩
  | .hbm, ⟨87, _⟩ => ⟨S100000x40, .f32⟩
  | .hbm, ⟨88, _⟩ => ⟨S100000x40, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x40, .f32⟩
  | .hbm, ⟨96, _⟩ => ⟨S100000x40, .f32⟩
  | .hbm, ⟨97, _⟩ => ⟨S100000x40, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x40, .f32⟩
  | .hbm, ⟨103, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x256_S256x64_S100000x64_1_0_0_1_n_n_wf : DotDims.WF S100000x256 S256x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x40_S100000x40_1_0_0_1_n_n_wf : DotDims.WF S100000x64 S64x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.Spec.lean ====
/-
  A two-layer graph convolution, as whole-array functions.

  Edges: `e` is a 2 × 3200000 table of node numbers; row 0 holds sources, row 1 destinations, and one self-loop per
  node is appended to each (`srcOf`, `dstOf`: 3300000 entries). The degree of a node counts the edges that end in it,
  `dinv` is its inverse square root where the degree is positive and 0 elsewhere, and an edge's weight is the product
  of `dinv` at its two ends (`normOf`).
  One aggregation (`seg64`, `seg40`): gather the rows of a node table at the edges' sources, scale each by its edge's
  weight, and add it into the row of the edge's destination, starting from zero.
  A layer adds a bias row to every row of the aggregate; the first layer then clamps at zero (`biasRelu`), the second
  takes the row-wise log-softmax (`biasLogSoftmax`): v − max v − log Σ exp (v − max v).
  Everything here is spelt with the host program's own operations, so the host program's value is these functions by
  unfolding, and the tiled program's value is shown to be the same functions.
-/
import proofs.«147935_j84670985273813_1_alg».proof.Proof.Gen.ReferenceIdeal

noncomputable section

namespace Cert.Gcn

open Cert.ReferenceIdeal Cert.ReferenceIdeal.Gen Idealize.ShloMosaic

variable {F : FTy → Type} [FloatOps F]

/-- Row `r` of the edge table followed by the self-loops 0, 1, …, 99999. -/
def srcOf (e : (⟨S2x3200000, .i32⟩ : BufTy).Contents (Elt F)) : (⟨S3300000, .i32⟩ : BufTy).Contents (Elt F) :=
  concatenate S3300000 0 [⟨S3200000, shapeCast _ (extractStridedSlice S1x3200000 ![0, 0] e slices_S2x3200000_S1x3200000_0_0) shapeCasts_S1x3200000_S3200000⟩, ⟨S100000, iotaInDim S100000 32 0⟩] concatenates_S3200000_S100000_S3300000_d0

def dstOf (e : (⟨S2x3200000, .i32⟩ : BufTy).Contents (Elt F)) : (⟨S3300000, .i32⟩ : BufTy).Contents (Elt F) :=
  concatenate S3300000 0 [⟨S3200000, shapeCast _ (extractStridedSlice S1x3200000 ![1, 0] e slices_S2x3200000_S1x3200000_1_0) shapeCasts_S1x3200000_S3200000⟩, ⟨S100000, iotaInDim S100000 32 0⟩] concatenates_S3200000_S100000_S3300000_d0

/-- A column of node numbers as gather indices: a negative number wraps around by the node count. -/
def gidx (s : (⟨S3300000, .i32⟩ : BufTy).Contents (Elt F)) : (⟨S3300000x1, .i32⟩ : BufTy).Contents (Elt F) :=
  broadcastInDim S3300000x1 ![0] bcast_S3300000_S3300000x1_0
    (select (cmpi .slt s (broadcastInDim S3300000 ![] bcast_S_S3300000 (constantI S_ 32 0#32)))
      (addi s (broadcastInDim S3300000 ![] bcast_S_S3300000 (constantI S_ 32 100000#32))) s)

/-- The number of edges ending in each node. -/
def degOf (d : (⟨S3300000, .i32⟩ : BufTy).Contents (Elt F)) : (⟨S100000, .f32⟩ : BufTy).Contents (Elt F) :=
  Host.scatterAdd scatter_S100000_S3300000x1_S3300000_n_0_0_1
    (broadcastInDim S100000 ![] bcast_S_S100000 (constant (F := F) S_ .f32 0x00000000#32))
    (broadcastInDim S3300000x1 ![0] bcast_S3300000_S3300000x1_0 d)
    (broadcastInDim S3300000 ![] bcast_S_S3300000 (constant (F := F) S_ .f32 0x3F800000#32))

/-- deg^(-1/2) where the degree is positive, 0 elsewhere. -/
def dinvOf (d : (⟨S3300000, .i32⟩ : BufTy).Contents (Elt F)) : (⟨S100000, .f32⟩ : BufTy).Contents (Elt F) :=
  select (cmpf .ogt (degOf d) (broadcastInDim S100000 ![] bcast_S_S100000 (constant (F := F) S_ .f32 0x00000000#32)))
    (Host.rsqrt (degOf d))
    (broadcastInDim S100000 ![] bcast_S_S100000 (id (constant (F := F) S_ .f32 0x00000000#32)))

/-- An edge's weight: dinv at its source times dinv at its destination. -/
def normOf (s d : (⟨S3300000, .i32⟩ : BufTy).Contents (Elt F)) : (⟨S3300000, .f32⟩ : BufTy).Contents (Elt F) :=
  mulf (Host.gather gather_S100000_S3300000x1_S3300000_n_0_n_n_0_1_1 (dinvOf d) (gidx s))
    (Host.gather gather_S100000_S3300000x1_S3300000_n_0_n_n_0_1_1 (dinvOf d) (gidx d))

/-- Weighted aggregation of a 64-column node table along the edges. -/
def seg64 (s d : (⟨S3300000, .i32⟩ : BufTy).Contents (Elt F)) (nrm : (⟨S3300000, .f32⟩ : BufTy).Contents (Elt F))
    (h : (⟨S100000x64, .f32⟩ : BufTy).Contents (Elt F)) : (⟨S100000x64, .f32⟩ : BufTy).Contents (Elt F) :=
  Host.scatterAdd scatter_S100000x64_S3300000x1_S3300000x64_1_0_0_1
    (broadcastInDim S100000x64 ![] bcast_S_S100000x64 (constant (F := F) S_ .f32 0x00000000#32))
    (broadcastInDim S3300000x1 ![0] bcast_S3300000_S3300000x1_0 d)
    (mulf (broadcastInDim S3300000x64 ![0, 1] bcast_S3300000x1_S3300000x64_0_1 (broadcastInDim S3300000x1 ![0] bcast_S3300000_S3300000x1_0 nrm))
      (Host.gather gather_S100000x64_S3300000x1_S3300000x64_1_0_n_n_0_1_164 h (gidx s)))

/-- Weighted aggregation of a 40-column node table along the edges. -/
def seg40 (s d : (⟨S3300000, .i32⟩ : BufTy).Contents (Elt F)) (nrm : (⟨S3300000, .f32⟩ : BufTy).Contents (Elt F))
    (h : (⟨S100000x40, .f32⟩ : BufTy).Contents (Elt F)) : (⟨S100000x40, .f32⟩ : BufTy).Contents (Elt F) :=
  Host.scatterAdd scatter_S100000x40_S3300000x1_S3300000x40_1_0_0_1
    (broadcastInDim S100000x40 ![] bcast_S_S100000x40 (constant (F := F) S_ .f32 0x00000000#32))
    (broadcastInDim S3300000x1 ![0] bcast_S3300000_S3300000x1_0 d)
    (mulf (broadcastInDim S3300000x40 ![0, 1] bcast_S3300000x1_S3300000x40_0_1 (broadcastInDim S3300000x1 ![0] bcast_S3300000_S3300000x1_0 nrm))
      (Host.gather gather_S100000x40_S3300000x1_S3300000x40_1_0_n_n_0_1_140 h (gidx s)))

/-- A bias vector as a one-row table. -/
def row64 (b : (⟨S64, .f32⟩ : BufTy).Contents (Elt F)) : (⟨S1x64, .f32⟩ : BufTy).Contents (Elt F) :=
  broadcastInDim S1x64 ![1] bcast_S64_S1x64_1 b
def row40 (b : (⟨S40, .f32⟩ : BufTy).Contents (Elt F)) : (⟨S1x40, .f32⟩ : BufTy).Contents (Elt F) :=
  broadcastInDim S1x40 ![1] bcast_S40_S1x40_1 b

/-- The first dense layer's product. -/
def mm1 (x : (⟨S100000x256, .f32⟩ : BufTy).Contents (Elt F)) (w : (⟨S256x64, .f32⟩ : BufTy).Contents (Elt F)) :
    (⟨S100000x64, .f32⟩ : BufTy).Contents (Elt F) :=
  Host.dotGeneral dot_S100000x256_S256x64_S100000x64_1_0_0_1_n_n none x w
/-- The second dense layer's product. -/
def mm2 (x : (⟨S100000x64, .f32⟩ : BufTy).Contents (Elt F)) (w : (⟨S64x40, .f32⟩ : BufTy).Contents (Elt F)) :
    (⟨S100000x40, .f32⟩ : BufTy).Contents (Elt F) :=
  Host.dotGeneral dot_S100000x64_S64x40_S100000x40_1_0_0_1_n_n none x w

/-- Add the bias row to every row, clamp at zero. -/
def biasRelu (a : (⟨S100000x64, .f32⟩ : BufTy).Contents (Elt F)) (brow : (⟨S1x64, .f32⟩ : BufTy).Contents (Elt F)) :
    (⟨S100000x64, .f32⟩ : BufTy).Contents (Elt F) :=
  maximumf (addf a (broadcastInDim S100000x64 ![0, 1] bcast_S1x64_S100000x64_0_1 brow))
    (broadcastInDim S100000x64 ![] bcast_S_S100000x64 (constant (F := F) S_ .f32 0x00000000#32))

/-- Row-wise log-softmax of a 40-column table: v − max v − log Σ exp (v − max v). -/
def logSoftmax (v : (⟨S100000x40, .f32⟩ : BufTy).Contents (Elt F)) : (⟨S100000x40, .f32⟩ : BufTy).Contents (Elt F) :=
  let mx : (⟨S100000, .f32⟩ : BufTy).Contents (Elt F) :=
    maximumf (broadcastInDim S100000 ![] bcast_S_S100000 (constant (F := F) S_ .f32 0xFF800000#32))
      (Host.reduce FloatOps.maximumf v (constant (F := F) S_ .f32 0xFF800000#32) reducesTo_S100000x40_S100000_d1 h_S_)
  let sh : (⟨S100000x40, .f32⟩ : BufTy).Contents (Elt F) :=
    subf v (broadcastInDim S100000x40 ![0, 1] bcast_S100000x1_S100000x40_0_1 (broadcastInDim S100000x1 ![0] bcast_S100000_S100000x1_0 mx))
  subf sh (broadcastInDim S100000x40 ![0, 1] bcast_S100000x1_S100000x40_0_1
    (Host.log (broadcastInDim S100000x1 ![0] bcast_S100000_S100000x1_0
      (Host.reduceAdd (Host.exp sh) (constant (F := F) S_ .f32 0x00000000#32) reducesTo_S100000x40_S100000_d1 h_S_))))

/-- Add the bias row to every row, then the row-wise log-softmax. -/
def biasLogSoftmax (a : (⟨S100000x40, .f32⟩ : BufTy).Contents (Elt F)) (brow : (⟨S1x40, .f32⟩ : BufTy).Contents (Elt F)) :
    (⟨S100000x40, .f32⟩ : BufTy).Contents (Elt F) :=
  logSoftmax (addf a (broadcastInDim S100000x40 ![0, 1] bcast_S1x40_S100000x40_0_1 brow))

/-- The whole network. -/
def gcn (x : (⟨S100000x256, .f32⟩ : BufTy).Contents (Elt F)) (e : (⟨S2x3200000, .i32⟩ : BufTy).Contents (Elt F))
    (w1 : (⟨S256x64, .f32⟩ : BufTy).Contents (Elt F)) (b1 : (⟨S64, .f32⟩ : BufTy).Contents (Elt F))
    (w2 : (⟨S64x40, .f32⟩ : BufTy).Contents (Elt F)) (b2 : (⟨S40, .f32⟩ : BufTy).Contents (Elt F)) :
    (⟨S100000x40, .f32⟩ : BufTy).Contents (Elt F) :=
  let s := srcOf e
  let d := dstOf e
  let nrm := normOf s d
  let h1 := biasRelu (seg64 s d nrm (mm1 x w1)) (row64 b1)
  biasLogSoftmax (seg40 s d nrm (mm2 h1 w2)) (row40 b2)

end Cert.Gcn

end
-- ==== Proof.KHost.lean ====
/-
  The host stretches of the tiled program, read as functions of what they find.

  Between its four tiled regions the program runs plain array operations: before the first region it builds the edge
  lists and the edge weights; before the second and before the fourth it aggregates the previous region's node table
  along the edges and lays the bias out as a one-row table. Each stretch is read here at an ARBITRARY content of the
  buffers it starts from: the buffers it writes hold the specification's functions of the buffers it reads, and every
  buffer it does not write keeps its contents.
-/
import proofs.«147935_j84670985273813_1_alg».proof.Proof.Gen.KernelIdeal.Launch
import proofs.«147935_j84670985273813_1_alg».proof.Proof.Spec
import Idealize.ShloMosaic.Lib.StableHlo.Run
import Idealize.ShloMosaic.Lib.Pipeline.Value

noncomputable section

namespace Cert.KernelIdeal.HostVal

open Cert.KernelIdeal Cert.KernelIdeal.Gen Idealize.ShloMosaic Idealize.ShloMosaic.TcCoe Idealize.SL.Sem Idealize.ShloMosaic.StableHlo

variable {F : FTy → Type} [FloatOps F]

/-! ## What each stretch writes, and that it leaves every other buffer alone -/

abbrev writes0 : List (Ref sig .tc) := [main_v0, main_v1, main_v2, main_v3, main_v4, main_v5, main_v6, main_cst, main_v7, main_cst_0, main_v8, main_v9, main_v10, main_cst_1, main_v11, main_v12, main_v13, main_cst_2]
abbrev writes0_1 : List (Ref sig .tc) := [main_call0_v0, main_call0_v1, main_v14]
abbrev writes0_2 : List (Ref sig .tc) := [main_c, main_v15, main_v16, main_c_3, main_v17, main_v18, main_v19, main_v20, main_v21, main_c_4, main_v22, main_v23, main_c_5, main_v24, main_v25, main_v26, main_v27, main_v28, main_v29]
abbrev writes1 : List (Ref sig .tc) := [main_v31, main_c_6, main_v32, main_v33, main_c_7, main_v34, main_v35, main_v36, main_v37, main_v38, main_v39, main_v40, main_cst_8, main_v41, main_v42, main_v43, main_v44]
abbrev writes3 : List (Ref sig .tc) := [main_v47, main_c_9, main_v48, main_v49, main_c_10, main_v50, main_v51, main_v52, main_v53, main_v54, main_v55, main_v56, main_cst_11, main_v57, main_v58, main_v59, main_v60]

theorem hostOps0_writes : (hostOps0 : List (HloOp τ sig (Elt F))).Forall fun op => op.writes ⊆ (writes0.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map.mpr ⟨_, by decide, rfl⟩
theorem hostOps0_1_writes : (hostOps0_1 : List (HloOp τ sig (Elt F))).Forall fun op => op.writes ⊆ (writes0_1.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map.mpr ⟨_, by decide, rfl⟩
theorem hostOps0_2_writes : (hostOps0_2 : List (HloOp τ sig (Elt F))).Forall fun op => op.writes ⊆ (writes0_2.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map.mpr ⟨_, by decide, rfl⟩
theorem hostOps1_writes : (hostOps1 : List (HloOp τ sig (Elt F))).Forall fun op => op.writes ⊆ (writes1.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map.mpr ⟨_, by decide, rfl⟩
theorem hostOps3_writes : (hostOps3 : List (HloOp τ sig (Elt F))).Forall fun op => op.writes ⊆ (writes3.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map.mpr ⟨_, by decide, rfl⟩

variable (Wp : Valuation τ sig (Elt F))

/-- A buffer the first stretch (edge lists, degrees) does not write keeps its contents. -/
theorem kept0 (r : Ref sig .tc) (h : r ∉ writes0) : after hostOps0 Wp (Proc.devRef .tc r) = Wp (Proc.devRef .tc r) :=
  after_of_writes_sub hostOps0 _ hostOps0_writes h
theorem kept0_1 (r : Ref sig .tc) (h : r ∉ writes0_1) : after hostOps0_1 Wp (Proc.devRef .tc r) = Wp (Proc.devRef .tc r) :=
  after_of_writes_sub hostOps0_1 _ hostOps0_1_writes h
theorem kept0_2 (r : Ref sig .tc) (h : r ∉ writes0_2) : after hostOps0_2 Wp (Proc.devRef .tc r) = Wp (Proc.devRef .tc r) :=
  after_of_writes_sub hostOps0_2 _ hostOps0_2_writes h
/-- A buffer the stretch before the second region does not write keeps its contents. -/
theorem kept1 (r : Ref sig .tc) (h : r ∉ writes1) : after hostOps1 Wp (Proc.devRef .tc r) = Wp (Proc.devRef .tc r) :=
  after_of_writes_sub hostOps1 _ hostOps1_writes h
/-- A buffer the stretch before the fourth region does not write keeps its contents. -/
theorem kept3 (r : Ref sig .tc) (h : r ∉ writes3) : after hostOps3 Wp (Proc.devRef .tc r) = Wp (Proc.devRef .tc r) :=
  after_of_writes_sub hostOps3 _ hostOps3_writes h

/-! ## The stretches before the first region: edge lists and edge weights -/

/-- The sources with the self-loops appended. -/
theorem s0_src : after hostOps0 Wp (Proc.devRef .tc main_v3) = Cert.Gcn.srcOf (Wp (Proc.devRef .tc main_arg1)) := by
  after_results; rfl
/-- The destinations with the self-loops appended. -/
theorem s0_dst : after hostOps0 Wp (Proc.devRef .tc main_v6) = Cert.Gcn.dstOf (Wp (Proc.devRef .tc main_arg1)) := by
  after_results; rfl

set_option maxHeartbeats 4000000 in
/-- The edge weights, read through the three stretches before the first region at once. -/
theorem entry_norm : after hostOps0_2 (after hostOps0_1 (after hostOps0 Wp)) (Proc.devRef .tc main_v29)
    = Cert.Gcn.normOf (Cert.Gcn.srcOf (Wp (Proc.devRef .tc main_arg1))) (Cert.Gcn.dstOf (Wp (Proc.devRef .tc main_arg1))) := by
  after_results_simp <;> rfl
theorem entry_src : after hostOps0_2 (after hostOps0_1 (after hostOps0 Wp)) (Proc.devRef .tc main_v3)
    = Cert.Gcn.srcOf (Wp (Proc.devRef .tc main_arg1)) := by
  rw [kept0_2 _ main_v3 (by decide), kept0_1 _ main_v3 (by decide), s0_src]
theorem entry_dst : after hostOps0_2 (after hostOps0_1 (after hostOps0 Wp)) (Proc.devRef .tc main_v6)
    = Cert.Gcn.dstOf (Wp (Proc.devRef .tc main_arg1)) := by
  rw [kept0_2 _ main_v6 (by decide), kept0_1 _ main_v6 (by decide), s0_dst]
/-- A buffer none of the three stretches before the first region writes keeps its contents through them. -/
theorem entry_kept (r : Ref sig .tc) (h0 : r ∉ writes0) (h1 : r ∉ writes0_1) (h2 : r ∉ writes0_2) :
    after hostOps0_2 (after hostOps0_1 (after hostOps0 Wp)) (Proc.devRef .tc r) = Wp (Proc.devRef .tc r) := by
  rw [kept0_2 _ r h2, kept0_1 _ r h1, kept0 _ r h0]

/-! ## The stretch before the second region: aggregate x·W1 along the edges, lay out the first bias -/

set_option maxHeartbeats 2000000 in
theorem s1_agg : after hostOps1 Wp (Proc.devRef .tc main_v43)
    = Cert.Gcn.seg64 (Wp (Proc.devRef .tc main_v3)) (Wp (Proc.devRef .tc main_v6)) (Wp (Proc.devRef .tc main_v29)) (Wp (Proc.devRef .tc main_v30)) := by
  after_results; rfl

/-- A vector laid out as a one-row table by a reshape is the vector broadcast along the new axis. -/
theorem row_of_reshape {n : Nat} {α : Type} (x : (⟨1, ![n]⟩ : Shape).Idx → α)
    (hc : (⟨1, ![n]⟩ : Shape).ShapeCasts ⟨2, ![1, n]⟩) (hb : (⟨1, ![n]⟩ : Shape).BroadcastsInDim ⟨2, ![1, n]⟩ (![1] : Fin 1 → Fin 2)) (hn : n ≠ 1) :
    shapeCast ⟨2, ![1, n]⟩ x hc = broadcastInDim ⟨2, ![1, n]⟩ ![1] hb x := by
  funext j
  rw [shapeCast_addUnit_apply (n := 1) (d := ![n]) x hc j]
  symm
  exact broadcastInDim_apply _ hb x j (fun a => j a.succ) (fun a => by
    match a with
    | ⟨0, _⟩ => show (j 1).val = if n = 1 then 0 else (j 1).val; rw [if_neg hn])

theorem s1_row : after hostOps1 Wp (Proc.devRef .tc main_v44) = Cert.Gcn.row64 (Wp (Proc.devRef .tc main_arg3)) := by
  after_results
  exact row_of_reshape (n := 64) _ _ _ (by decide)

/-! ## The stretch before the fourth region: aggregate h·W2 along the edges, lay out the second bias -/

set_option maxHeartbeats 2000000 in
theorem s3_agg : after hostOps3 Wp (Proc.devRef .tc main_v59)
    = Cert.Gcn.seg40 (Wp (Proc.devRef .tc main_v3)) (Wp (Proc.devRef .tc main_v6)) (Wp (Proc.devRef .tc main_v29)) (Wp (Proc.devRef .tc main_v46)) := by
  after_results; rfl

theorem s3_row : after hostOps3 Wp (Proc.devRef .tc main_v60) = Cert.Gcn.row40 (Wp (Proc.devRef .tc main_arg5)) := by
  after_results
  exact row_of_reshape (n := 40) _ _ _ (by decide)

end Cert.KernelIdeal.HostVal

end
-- ==== Proof.Region0.lean ====
/-
  Region 0: x · W1, twenty row blocks of 5000 rows. Each grid point multiplies its 5000 × 256 block of x by the whole of W1; the blocks tile the rows, so the array the region leaves is the whole product.
-/
import proofs.«147935_j84670985273813_1_alg».proof.Proof.Gen.KernelIdeal.Frame
import proofs.«147935_j84670985273813_1_alg».proof.Proof.Spec
import proofs.«147935_j84670985273813_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionVal

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- The zero offsets of a whole-buffer access, as the constant function. -/
theorem mm1_zero_offsets : (![0, 0] : Fin 2 → Nat) = fun _ => 0 := funext fun a => by fin_cases a <;> rfl

/-! ## One block's product at an index -/

/-- The left operand's row coordinate is the result's row. -/
theorem mm1Block_lhs_row (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
/-- The left operand's column coordinate is the contraction position. -/
theorem mm1Block_lhs_col (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
/-- The right operand's row coordinate is the contraction position. -/
theorem mm1Block_rhs_row (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
/-- The right operand's column coordinate is the result's column. -/
theorem mm1Block_rhs_col (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- Entry (row of j, k) of a 5000 × 256 block. -/
abbrev mm1Block_lhsAt (j : S5000x64.Idx) (k : Fin 256) : S5000x256.Idx := fun a => match a with
  | ⟨0, _⟩ => ⟨(j 0).val, (j 0).isLt⟩
  | ⟨1, _⟩ => ⟨k.val, k.isLt⟩
/-- Entry (k, column of j) of the 256 × 64 matrix. -/
abbrev mm1Block_rhsAt (j : S5000x64.Idx) (k : Fin 256) : S256x64.Idx := fun a => match a with
  | ⟨0, _⟩ => ⟨k.val, k.isLt⟩
  | ⟨1, _⟩ => ⟨(j 1).val, (j 1).isLt⟩

/-- The body's product of a 5000 × 256 block with the 256 × 64 matrix, at (p, q): Σ_k block (p, k) · matrix (k, q).
    The conversions of both operands to the narrower format are the identity on extended reals, and the accumulator
    is zero. -/
theorem mm1Block_apply (x0 : Vec Ideal S5000x256 .f32) (x1 : Vec Ideal S256x64 .f32) (j : S5000x64.Idx) :
    k0_pay1 (F := Ideal) x0 x1 j = ∑ k : Fin 256, x0 (mm1Block_lhsAt j k) * x1 (mm1Block_rhsAt j k) := by
  show FloatOps.matmul dot_S5000x256_S256x64_S5000x64_1_0_0_1_n_n none (truncf (F := Ideal) .bf16 x0 bitsLt_bf16_f32) (truncf (F := Ideal) .bf16 x1 bitsLt_bf16_f32) (constant S5000x64 .f32 0x00000000#32) j = _
  rw [Ideal.matmul_constant_zero_apply, ← Equiv.sum_comp (ValueIdx.contrEquiv1 dot_S5000x256_S256x64_S5000x64_1_0_0_1_n_n 256 rfl rfl).symm]
  refine Finset.sum_congr rfl fun k _ => ?_
  have hk := ValueIdx.contrEquiv1_symm_val dot_S5000x256_S256x64_S5000x64_1_0_0_1_n_n 256 rfl rfl k
  have el : dot_S5000x256_S256x64_S5000x64_1_0_0_1_n_n.lhsIdx j ((ValueIdx.contrEquiv1 dot_S5000x256_S256x64_S5000x64_1_0_0_1_n_n 256 rfl rfl).symm k) = mm1Block_lhsAt j k := funext fun a => Fin.ext (by
    match a with
    | ⟨0, _⟩ => exact mm1Block_lhs_row _ _
    | ⟨1, _⟩ => exact (mm1Block_lhs_col _ _).trans hk)
  have er : dot_S5000x256_S256x64_S5000x64_1_0_0_1_n_n.rhsIdx j ((ValueIdx.contrEquiv1 dot_S5000x256_S256x64_S5000x64_1_0_0_1_n_n 256 rfl rfl).symm k) = mm1Block_rhsAt j k := funext fun a => Fin.ext (by
    match a with
    | ⟨0, _⟩ => exact (mm1Block_rhs_row _ _).trans hk
    | ⟨1, _⟩ => exact mm1Block_rhs_col _ _)
  rw [el, er]
  rfl

/-- The whole product at (r, q): Σ_k x (r, k) · w (k, q). -/
theorem mm1_apply (x : (⟨Cert.ReferenceIdeal.S100000x256, .f32⟩ : BufTy).Contents (Elt Ideal))
    (w : (⟨Cert.ReferenceIdeal.S256x64, .f32⟩ : BufTy).Contents (Elt Ideal)) (i : Cert.ReferenceIdeal.S100000x64.Idx) :
    Cert.Gcn.mm1 (F := Ideal) x w i
      = ∑ k : Fin 256, x (Cert.ReferenceIdeal.Read.lidx_main_v30 i k) * w (Cert.ReferenceIdeal.Read.ridx_main_v30 i k) :=
  Cert.ReferenceIdeal.Read.val_main_v30_apply x w i

/-! ## From the row blocks to the array -/

/-- The windows' block indices over the grid: the first operand's and the result's block is the point's number
    down the rows and 0 across; the second operand's block is always (0, 0). -/
theorem mm1_blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product: entry (p, q) of the block's product is
    Σ_k x (5000 t + p, k) · w (k, q), which is entry (5000 t + p, q) of x · w. -/
theorem mm1_flushed (c : Dev nD) (t : Fin cfg0.N) :
    (dat0 V c).flushed 2 t
      = ((cfg0.win 2).blk t).view.read (Elt Ideal) (Cert.Gcn.mm1 (F := Ideal) (V c main_arg0) (V c main_arg2)) := by
  show (cfg0.win 2).cut (grid0.coords t) ((dat0 V c).after 2 t) = _
  rw [after0_2]
  unfold out0_2
  rw [View.canon_unit_zero mm1_zero_offsets]
  simp only [View.ld_unit_zero (S := S5000x256) mm1_zero_offsets, View.ld_unit_zero (S := S256x64) mm1_zero_offsets]
  obtain ⟨e0, e1, e2, e3, e4, e5⟩ := mm1_blockIndex t
  funext j
  show k0_pay1 (F := Ideal) (iblk0 V c 0 t) (iblk0 V c 1 t) j
    = Cert.Gcn.mm1 (F := Ideal) (V c main_arg0) (V c main_arg2) (((cfg0.win 2).blk t).view.emb j)
  refine (mm1Block_apply _ _ j).trans ?_
  refine Eq.trans ?_ (mm1_apply _ _ _).symm
  refine Finset.sum_congr rfl fun k _ => ?_
  have hl : iblk0 V c 0 t (mm1Block_lhsAt j k)
      = V c main_arg0 (Cert.ReferenceIdeal.Read.lidx_main_v30 (((cfg0.win 2).blk t).view.emb j) k) := by
    show V c main_arg0 (((cfg0.win 0).blk t).view.emb (mm1Block_lhsAt j k)) = _
    congr 1
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have hr : iblk0 V c 1 t (mm1Block_rhsAt j k)
      = V c main_arg2 (Cert.ReferenceIdeal.Read.ridx_main_v30 (((cfg0.win 2).blk t).view.emb j) k) := by
    show V c main_arg2 (((cfg0.win 1).blk t).view.emb (mm1Block_rhsAt j k)) = _
    congr 1
    funext a; apply Fin.ext
    match a with
    | ⟨0, _⟩ => show win0_1.index t (0 : Fin 2) * 256 + 1 * k.val = k.val; omega
    | ⟨1, _⟩ => show win0_1.index t (1 : Fin 2) * 64 + 1 * (j 1).val = win0_2.index t (1 : Fin 2) * 64 + 1 * (j 1).val; omega
  rw [hl, hr]

/-- An index of the array is in point t's block iff each coordinate is in the block's range on its axis. -/
theorem mm1_mem_rowBlock (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- The twenty blocks of 5000 rows tile the 100000 rows: row r lies in the block of point r / 5000. -/
theorem mm1_rowBlocks_cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  have ht : t.val = (i 0).val / 5000 := rfl
  obtain ⟨-, -, -, -, e4, e5⟩ := mm1_blockIndex t
  refine ⟨t, flush0_2 t, ?_⟩
  rw [mm1_mem_rowBlock]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- What the first region leaves in its result array: the product of the two arrays it reads, as the region finds them. -/
theorem final0 (c : Dev nD) :
    (dat0 V c).arrAt 2 cfg0.N = Cert.Gcn.mm1 (F := Ideal) (V c main_arg0) (V c main_arg2) := by
  exact (dat0 V c).arrAt_eq_of_cover 2 (Cert.Gcn.mm1 (F := Ideal) (V c main_arg0) (V c main_arg2))
    (fun t _ => mm1_flushed V c t) mm1_rowBlocks_cover

end Cert.KernelIdeal.RegionVal

end
-- ==== Proof.Region1.lean ====
/-
  Region 1: max(a + b, 0) row block by row block; the bias is a one-row table every block reads whole.
-/
import proofs.«147935_j84670985273813_1_alg».proof.Proof.Gen.KernelIdeal.Frame
import proofs.«147935_j84670985273813_1_alg».proof.Proof.Spec
import proofs.«147935_j84670985273813_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionVal

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- The offset pair (0, 0), written as a two-entry vector, is the offset that is 0 on every axis. -/
theorem biasRelu_zero_offsets : (![0, 0] : Fin 2 → Nat) = fun _ => 0 := funext fun a => by fin_cases a <;> rfl

/-- The entry of the one-row bias table that stands under column `j 1` of a 5000 × 64 block: row 0, same column. -/
abbrev biasRelu_under (j : S5000x64.Idx) : S1x64.Idx := fun a => match a with
  | ⟨0, _⟩ => ⟨0, Nat.one_pos⟩
  | ⟨1, _⟩ => ⟨(j 1).val, (j 1).isLt⟩

/-- One element of the body's result on a block `a` and the bias row `b`: a(p, q) + b(0, q), clamped below at zero.
    Both shape casts are to the operand's own shape, the bias row is repeated down the rows, and the zero is the
    same at every element. -/
theorem biasRelu_body_apply (a : Vec Ideal S5000x64 .f32) (b : Vec Ideal S1x64 .f32) (j : S5000x64.Idx) :
    k1_pay1 a b j = max (a j + b (biasRelu_under j)) (Ideal.ofBits .f32 0x00000000#32) := by
  unfold k1_pay1
  simp only [shapeCast_self]
  rw [maximumf_apply, addf_apply, broadcast_apply]
  rw [broadcastTo_apply b broadcasts_S1x64_S5000x64 j (biasRelu_under j) (fun a => match a with
    | ⟨0, _⟩ => by show 0 = if (1 : Nat) = 1 then 0 else (j 0).val; rw [if_pos rfl]
    | ⟨1, _⟩ => by show (j 1).val = if (64 : Nat) = 1 then 0 else (j 1).val; rw [if_neg (by decide)])]
  rfl

/-- One element of the specification on a table `a` and the bias row `brow`: a(r, q) + brow(0, q), clamped below at
    zero, for any name `k` of the bias entry (0, q). -/
theorem biasRelu_spec_apply (a : (⟨S100000x64, .f32⟩ : BufTy).Contents (Elt Ideal)) (brow : (⟨S1x64, .f32⟩ : BufTy).Contents (Elt Ideal))
    (i : S100000x64.Idx) (k : S1x64.Idx) (hk0 : (k 0).val = 0) (hk1 : (k 1).val = (i 1).val) :
    Cert.Gcn.biasRelu (F := Ideal) a brow i = max (a i + brow k) (Ideal.ofBits .f32 0x00000000#32) := by
  unfold Cert.Gcn.biasRelu
  rw [maximumf_apply, addf_apply]
  rw [broadcastInDim_apply _ Cert.ReferenceIdeal.Gen.bcast_S1x64_S100000x64_0_1 brow i k (fun a => match a with
    | ⟨0, _⟩ => by show (k 0).val = if (1 : Nat) = 1 then 0 else (i 0).val; rw [if_pos rfl]; exact hk0
    | ⟨1, _⟩ => by show (k 1).val = if (64 : Nat) = 1 then 0 else (i 1).val; rw [if_neg (by decide)]; exact hk1)]
  rw [broadcastInDim_apply _ Cert.ReferenceIdeal.Gen.bcast_S_S100000x64 (constant (F := Ideal) Cert.ReferenceIdeal.S_ .f32 0x00000000#32) i (fun a => a.elim0) (fun a => a.elim0)]
  rfl

/-- The block indices at each of the 20 points: the input block and the result block have the same row-block index,
    namely the point's number, and column-block index 0; the bias table's block index is (0, 0). -/
theorem biasRelu_block_index : ∀ t : Fin cfg1.N, win1_0.index t (0 : Fin 2) = win1_2.index t (0 : Fin 2)
    ∧ win1_0.index t (1 : Fin 2) = 0
    ∧ win1_2.index t (1 : Fin 2) = 0
    ∧ win1_1.index t (0 : Fin 2) = 0
    ∧ win1_1.index t (1 : Fin 2) = 0
    ∧ win1_2.index t (0 : Fin 2) = t.val :=
  (by decide +kernel : ∀ t : Fin grid1.N, _)

/-- The block that point `t` writes to the result table is block `t` of the specification's table: at row `p`,
    column `q` of the block, each is the entry table's element at row 5000 t + p, column q, plus the bias under
    column q, clamped below at zero. -/
theorem biasRelu_writeback (c : Dev nD) (t : Fin cfg1.N) :
    (dat1 V c).flushed 2 t
      = ((cfg1.win 2).blk t).view.read (Elt Ideal) (Cert.Gcn.biasRelu (F := Ideal) (V c main_v43) (V c main_v44)) := by
  show (cfg1.win 2).cut (grid1.coords t) ((dat1 V c).after 2 t) = _
  rw [after1_2]
  unfold out1_2
  rw [View.canon_unit_zero biasRelu_zero_offsets]
  simp only [View.ld_unit_zero (S := S5000x64) biasRelu_zero_offsets, View.ld_unit_zero (S := S1x64) biasRelu_zero_offsets]
  obtain ⟨e0, e1, e2, e3, e4, e5⟩ := biasRelu_block_index t
  funext j
  show k1_pay1 (iblk1 V c 0 t) (iblk1 V c 1 t) j
    = Cert.Gcn.biasRelu (F := Ideal) (V c main_v43) (V c main_v44) (((cfg1.win 2).blk t).view.emb j)
  -- an element of the input block stands at the same row and column of its table as the result block's element of its own
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * (j 1).val = win1_2.index t (1 : Fin 2) * 64 + 1 * (j 1).val; omega
  refine (biasRelu_body_apply _ _ j).trans ?_
  -- the bias block is the whole one-row table, so its entry under column q is the table's entry (0, q)
  refine Eq.trans ?_ (biasRelu_spec_apply _ _ _ (((cfg1.win 1).blk t).view.emb (biasRelu_under j)) ?_ ?_).symm
  · rw [← h0]; rfl
  · show win1_1.index t (0 : Fin 2) * 1 + 1 * 0 = 0; omega
  · show win1_1.index t (1 : Fin 2) * 64 + 1 * (j 1).val = win1_2.index t (1 : Fin 2) * 64 + 1 * (j 1).val; omega

/-- An index of the result table lies in point `t`'s block iff, on each axis, its coordinate lies in the block's range:
    from block index × block extent, for one block extent. -/
theorem biasRelu_mem_block (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v45).slice (win1_2.rect t)).set ↔ _
  rw [View.set_slice_whole, Rect.mem_set_unit]
  exact Iff.rfl

/-- Row r of the result table lies in the block of point r / 5000 (20 blocks of 5000 rows make the 100000 rows; every
    block spans all 64 columns), and every point writes its block. -/
theorem biasRelu_row_covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨e0, e1, e2, e3, e4, e5⟩ := biasRelu_block_index t
  have e5' : win1_2.index t (0 : Fin 2) = (i 0).val / 5000 := e5
  refine ⟨t, flush1_2 t, ?_⟩
  rw [biasRelu_mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- What the second region leaves in its result array: bias added to every row, clamped at zero. -/
theorem final1 (c : Dev nD) :
    (dat1 V c).arrAt 2 cfg1.N = Cert.Gcn.biasRelu (F := Ideal) (V c main_v43) (V c main_v44) :=
  (dat1 V c).arrAt_eq_of_cover 2 (Cert.Gcn.biasRelu (F := Ideal) (V c main_v43) (V c main_v44))
    (fun t _ => biasRelu_writeback V c t) biasRelu_row_covered

end Cert.KernelIdeal.RegionVal

end
-- ==== Proof.Region2.lean ====
/-
  Region 2: h · W2, twenty row blocks of 5000 rows. Each grid point multiplies its 5000 × 64 block of h by the whole of W2; the blocks tile the rows, so the array the region leaves is the whole product.
-/
import proofs.«147935_j84670985273813_1_alg».proof.Proof.Gen.KernelIdeal.Frame
import proofs.«147935_j84670985273813_1_alg».proof.Proof.Spec
import proofs.«147935_j84670985273813_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionVal

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- The zero offsets of a whole-buffer access, as the constant function. -/
theorem mm2_zero_offsets : (![0, 0] : Fin 2 → Nat) = fun _ => 0 := funext fun a => by fin_cases a <;> rfl

/-! ## One block's product at an index -/

/-- The left operand's row coordinate is the result's row. -/
theorem mm2Block_lhs_row (i : S5000x40.Idx) (q : dot_S5000x64_S64x40_S5000x40_1_0_0_1_n_n.contr.Idx) :
    (dot_S5000x64_S64x40_S5000x40_1_0_0_1_n_n.lhsIdx i q 0).val = (i 0).val := by
  unfold DotDims.lhsIdx
  rw [dif_neg (show ¬(0 : Fin S5000x64.rank) ∈ dot_S5000x64_S64x40_S5000x40_1_0_0_1_n_n.lhsBatch by decide), dif_pos (show (0 : Fin S5000x64.rank) ∈ dot_S5000x64_S64x40_S5000x40_1_0_0_1_n_n.lhsNonContracting by decide)]
  rfl
/-- The left operand's column coordinate is the contraction position. -/
theorem mm2Block_lhs_col (i : S5000x40.Idx) (q : dot_S5000x64_S64x40_S5000x40_1_0_0_1_n_n.contr.Idx) :
    (dot_S5000x64_S64x40_S5000x40_1_0_0_1_n_n.lhsIdx i q 1).val = (q ⟨0, by decide⟩).val :=
  dot_S5000x64_S64x40_S5000x40_1_0_0_1_n_n.lhsIdx_val_of_single rfl i q
/-- The right operand's row coordinate is the contraction position. -/
theorem mm2Block_rhs_row (i : S5000x40.Idx) (q : dot_S5000x64_S64x40_S5000x40_1_0_0_1_n_n.contr.Idx) :
    (dot_S5000x64_S64x40_S5000x40_1_0_0_1_n_n.rhsIdx i q 0).val = (q ⟨0, by decide⟩).val :=
  dot_S5000x64_S64x40_S5000x40_1_0_0_1_n_n.rhsIdx_val_of_single rfl i q
/-- The right operand's column coordinate is the result's column. -/
theorem mm2Block_rhs_col (i : S5000x40.Idx) (q : dot_S5000x64_S64x40_S5000x40_1_0_0_1_n_n.contr.Idx) :
    (dot_S5000x64_S64x40_S5000x40_1_0_0_1_n_n.rhsIdx i q 1).val = (i 1).val := by
  unfold DotDims.rhsIdx
  rw [dif_neg (show ¬(1 : Fin S64x40.rank) ∈ dot_S5000x64_S64x40_S5000x40_1_0_0_1_n_n.rhsBatch by decide), dif_pos (show (1 : Fin S64x40.rank) ∈ dot_S5000x64_S64x40_S5000x40_1_0_0_1_n_n.rhsNonContracting by decide)]
  rfl

/-- Entry (row of j, k) of a 5000 × 64 block. -/
abbrev mm2Block_lhsAt (j : S5000x40.Idx) (k : Fin 64) : S5000x64.Idx := fun a => match a with
  | ⟨0, _⟩ => ⟨(j 0).val, (j 0).isLt⟩
  | ⟨1, _⟩ => ⟨k.val, k.isLt⟩
/-- Entry (k, column of j) of the 64 × 40 matrix. -/
abbrev mm2Block_rhsAt (j : S5000x40.Idx) (k : Fin 64) : S64x40.Idx := fun a => match a with
  | ⟨0, _⟩ => ⟨k.val, k.isLt⟩
  | ⟨1, _⟩ => ⟨(j 1).val, (j 1).isLt⟩

/-- The body's product of a 5000 × 64 block with the 64 × 40 matrix, at (p, q): Σ_k block (p, k) · matrix (k, q).
    Recasting the block to its own shape changes nothing, the conversions of both operands to the narrower format
    are the identity on extended reals, and the accumulator is zero. -/
theorem mm2Block_apply (x0 : Vec Ideal S5000x64 .f32) (x1 : Vec Ideal S64x40 .f32) (j : S5000x40.Idx) :
    k2_pay1 (F := Ideal) x0 x1 j = ∑ k : Fin 64, x0 (mm2Block_lhsAt j k) * x1 (mm2Block_rhsAt j k) := by
  show FloatOps.matmul dot_S5000x64_S64x40_S5000x40_1_0_0_1_n_n none (truncf (F := Ideal) .bf16 (shapeCast S5000x64 x0 shapeCasts_S5000x64_S5000x64) bitsLt_bf16_f32) (truncf (F := Ideal) .bf16 x1 bitsLt_bf16_f32) (constant S5000x40 .f32 0x00000000#32) j = _
  rw [shapeCast_self]
  rw [Ideal.matmul_constant_zero_apply, ← Equiv.sum_comp (ValueIdx.contrEquiv1 dot_S5000x64_S64x40_S5000x40_1_0_0_1_n_n 64 rfl rfl).symm]
  refine Finset.sum_congr rfl fun k _ => ?_
  have hk := ValueIdx.contrEquiv1_symm_val dot_S5000x64_S64x40_S5000x40_1_0_0_1_n_n 64 rfl rfl k
  have el : dot_S5000x64_S64x40_S5000x40_1_0_0_1_n_n.lhsIdx j ((ValueIdx.contrEquiv1 dot_S5000x64_S64x40_S5000x40_1_0_0_1_n_n 64 rfl rfl).symm k) = mm2Block_lhsAt j k := funext fun a => Fin.ext (by
    match a with
    | ⟨0, _⟩ => exact mm2Block_lhs_row _ _
    | ⟨1, _⟩ => exact (mm2Block_lhs_col _ _).trans hk)
  have er : dot_S5000x64_S64x40_S5000x40_1_0_0_1_n_n.rhsIdx j ((ValueIdx.contrEquiv1 dot_S5000x64_S64x40_S5000x40_1_0_0_1_n_n 64 rfl rfl).symm k) = mm2Block_rhsAt j k := funext fun a => Fin.ext (by
    match a with
    | ⟨0, _⟩ => exact (mm2Block_rhs_row _ _).trans hk
    | ⟨1, _⟩ => exact mm2Block_rhs_col _ _)
  rw [el, er]
  rfl

/-- The whole product at (r, q), for any left operand: Σ_k x (r, k) · w (k, q). -/
theorem mm2_apply (x : (⟨Cert.ReferenceIdeal.S100000x64, .f32⟩ : BufTy).Contents (Elt Ideal))
    (w : (⟨Cert.ReferenceIdeal.S64x40, .f32⟩ : BufTy).Contents (Elt Ideal)) (i : Cert.ReferenceIdeal.S100000x40.Idx) :
    Cert.Gcn.mm2 (F := Ideal) x w i
      = ∑ k : Fin 64, x (Cert.ReferenceIdeal.Read.lidx_main_v48 i k) * w (Cert.ReferenceIdeal.Read.ridx_main_v48 i k) := by
  unfold Cert.Gcn.mm2
  simp only [Host.dotGeneral]
  rw [Ideal.dotGeneral_apply, ← Equiv.sum_comp (ValueIdx.contrEquiv1 Cert.ReferenceIdeal.dot_S100000x64_S64x40_S100000x40_1_0_0_1_n_n 64 rfl rfl).symm]
  refine Finset.sum_congr rfl fun k _ => ?_
  have hk := ValueIdx.contrEquiv1_symm_val Cert.ReferenceIdeal.dot_S100000x64_S64x40_S100000x40_1_0_0_1_n_n 64 rfl rfl k
  have el : Cert.ReferenceIdeal.dot_S100000x64_S64x40_S100000x40_1_0_0_1_n_n.lhsIdx i ((ValueIdx.contrEquiv1 Cert.ReferenceIdeal.dot_S100000x64_S64x40_S100000x40_1_0_0_1_n_n 64 rfl rfl).symm k) = Cert.ReferenceIdeal.Read.lidx_main_v48 i k := funext fun a => Fin.ext (by
    match a with
    | ⟨0, _⟩ => exact Cert.ReferenceIdeal.Read.lhs_main_v48_0 _ _
    | ⟨1, _⟩ => exact (Cert.ReferenceIdeal.Read.lhs_main_v48_1 _ _).trans hk)
  have er : Cert.ReferenceIdeal.dot_S100000x64_S64x40_S100000x40_1_0_0_1_n_n.rhsIdx i ((ValueIdx.contrEquiv1 Cert.ReferenceIdeal.dot_S100000x64_S64x40_S100000x40_1_0_0_1_n_n 64 rfl rfl).symm k) = Cert.ReferenceIdeal.Read.ridx_main_v48 i k := funext fun a => Fin.ext (by
    match a with
    | ⟨0, _⟩ => exact (Cert.ReferenceIdeal.Read.rhs_main_v48_0 _ _).trans hk
    | ⟨1, _⟩ => exact Cert.ReferenceIdeal.Read.rhs_main_v48_1 _ _)
  rw [el, er]

/-! ## From the row blocks to the array -/

/-- The windows' block indices over the grid: the first operand's and the result's block is the point's number
    down the rows and 0 across; the second operand's block is always (0, 0). -/
theorem mm2_blockIndex : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product: entry (p, q) of the block's product is
    Σ_k h (5000 t + p, k) · w (k, q), which is entry (5000 t + p, q) of h · w. -/
theorem mm2_flushed (c : Dev nD) (t : Fin cfg2.N) :
    (dat2 V c).flushed 2 t
      = ((cfg2.win 2).blk t).view.read (Elt Ideal) (Cert.Gcn.mm2 (F := Ideal) (V c main_v45) (V c main_arg4)) := by
  show (cfg2.win 2).cut (grid2.coords t) ((dat2 V c).after 2 t) = _
  rw [after2_2]
  unfold out2_2
  rw [View.canon_unit_zero mm2_zero_offsets]
  simp only [View.ld_unit_zero (S := S5000x64) mm2_zero_offsets, View.ld_unit_zero (S := S64x40) mm2_zero_offsets]
  obtain ⟨e0, e1, e2, e3, e4, e5⟩ := mm2_blockIndex t
  funext j
  show k2_pay1 (F := Ideal) (iblk2 V c 0 t) (iblk2 V c 1 t) j
    = Cert.Gcn.mm2 (F := Ideal) (V c main_v45) (V c main_arg4) (((cfg2.win 2).blk t).view.emb j)
  refine (mm2Block_apply _ _ j).trans ?_
  refine Eq.trans ?_ (mm2_apply _ _ _).symm
  refine Finset.sum_congr rfl fun k _ => ?_
  have hl : iblk2 V c 0 t (mm2Block_lhsAt j k)
      = V c main_v45 (Cert.ReferenceIdeal.Read.lidx_main_v48 (((cfg2.win 2).blk t).view.emb j) k) := by
    show V c main_v45 (((cfg2.win 0).blk t).view.emb (mm2Block_lhsAt j k)) = _
    congr 1
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * k.val = k.val; omega
  have hr : iblk2 V c 1 t (mm2Block_rhsAt j k)
      = V c main_arg4 (Cert.ReferenceIdeal.Read.ridx_main_v48 (((cfg2.win 2).blk t).view.emb j) k) := by
    show V c main_arg4 (((cfg2.win 1).blk t).view.emb (mm2Block_rhsAt j k)) = _
    congr 1
    funext a; apply Fin.ext
    match a with
    | ⟨0, _⟩ => show win2_1.index t (0 : Fin 2) * 64 + 1 * k.val = k.val; omega
    | ⟨1, _⟩ => show win2_1.index t (1 : Fin 2) * 40 + 1 * (j 1).val = win2_2.index t (1 : Fin 2) * 40 + 1 * (j 1).val; omega
  rw [hl, hr]

/-- An index of the array is in point t's block iff each coordinate is in the block's range on its axis. -/
theorem mm2_mem_rowBlock (t : Fin cfg2.N) (i : S100000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v46).slice (win2_2.rect t)).set ↔ _
  rw [View.set_slice_whole, Rect.mem_set_unit]
  exact Iff.rfl

/-- The twenty blocks of 5000 rows tile the 100000 rows: row r lies in the block of point r / 5000. -/
theorem mm2_rowBlocks_cover (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  have hN : cfg2.N = 20 := N_2
  let t : Fin cfg2.N := ⟨(i 0).val / 5000, by rw [hN]; omega⟩
  have ht : t.val = (i 0).val / 5000 := rfl
  obtain ⟨-, -, -, -, e4, e5⟩ := mm2_blockIndex t
  refine ⟨t, flush2_2 t, ?_⟩
  rw [mm2_mem_rowBlock]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 40 ≤ (i 1).val ∧ (i 1).val < win2_2.index t (1 : Fin 2) * 40 + 40; omega

/-- What the third region leaves in its result array: the product of the two arrays it reads, as the region finds them. -/
theorem final2 (c : Dev nD) :
    (dat2 V c).arrAt 2 cfg2.N = Cert.Gcn.mm2 (F := Ideal) (V c main_v45) (V c main_arg4) := by
  exact (dat2 V c).arrAt_eq_of_cover 2 (Cert.Gcn.mm2 (F := Ideal) (V c main_v45) (V c main_arg4))
    (fun t _ => mm2_flushed V c t) mm2_rowBlocks_cover

end Cert.KernelIdeal.RegionVal

end
-- ==== Proof.Region3.lean ====
/-
  Region 3: row-wise log-softmax of a + b, row block by row block; a row's maximum and its sum of exponentials only read that row, so a block's rows are the whole array's rows.
-/
import proofs.«147935_j84670985273813_1_alg».proof.Proof.Gen.KernelIdeal.Frame
import proofs.«147935_j84670985273813_1_alg».proof.Proof.Spec
import proofs.«147935_j84670985273813_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionVal

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-! ## Layout steps read at an index written by coordinates -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `p` of a matrix with column `k` put back in is the entry `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

end Layout
/-! ## One row of the result -/

/-- The float pattern of −∞ is the least extended real. -/
theorem negInf_f32 : Ideal.ofBits .f32 0xFF800000#32 = (⊥ : EReal) := by simp [Ideal.ofBits, Ideal.ieee]

/-- The largest entry of a row of 40 extended reals (−∞ bounds it below). -/
def rowMax (v : Fin 40 → EReal) : EReal := (Finset.univ : Finset (Fin 40)).fold max (⊥ : EReal) v

/-- The log-softmax of one row `v` at column `q`: v q − max v − log Σ_k exp (v k − max v). -/
def rowLogSoftmax (v : Fin 40 → EReal) (q : Fin 40) : EReal :=
  (v q - rowMax v) - Ideal.log (∑ k : Fin 40, Ideal.exp (v k - rowMax v))

/-! ## The tile's arithmetic, entry by entry -/

/-- A tile's maximum along its rows, from −∞, at row `p`, is that row's largest entry. -/
theorem tile_rowMax (v : FVec Ideal S5000x40 .f32) (h : S5000x40.Reduces [1] S5000) (hφ : FKind.Formats .f32)
    (hacc : (0xFF800000#32 : BitVec 32) = 0xFF800000#32) (p : Fin 5000) :
    multiReduction .maximumf [1] S5000 v 0xFF800000#32 h hφ hacc (ix1 p) = rowMax fun k => v (ix2 p k) := by
  refine (Ideal.multiReduction_maximumf_single v 0xFF800000#32 h hφ hacc (ix1 p)).trans ?_
  rw [Ideal.ofBits_def, negInf_f32]
  exact congrArg (fun f => (Finset.univ : Finset (Fin 40)).fold max (⊥ : EReal) f) (funext fun k => congrArg v (lift_row h p k))

/-- A tile's sum along its rows, at row `p`, is the sum of that row's entries. -/
theorem tile_rowSum (v : FVec Ideal S5000x40 .f32) (h : S5000x40.Reduces [1] S5000) (hφ : FKind.Formats .f32)
    (hacc : (0x00000000#32 : BitVec 32) = 0x00000000#32) (p : Fin 5000) :
    multiReduction .add [1] S5000 v 0x00000000#32 h hφ hacc (ix1 p) = ∑ k : Fin 40, v (ix2 p k) := by
  refine (Ideal.multiReduction_add_single v 0x00000000#32 h hφ hacc (ix1 p)).trans ?_
  exact Finset.sum_congr rfl fun k _ => congrArg v (lift_row h p k)

/-- A per-row value, cast to a column and broadcast along the rows, reads its row's value at every column. -/
theorem tile_keepdims (w : FVec Ideal S5000 .f32) (h1 : S5000.ShapeCasts S5000x1) (h2 : S5000x1.Broadcasts S5000x40)
    (p : Fin 5000) (q : Fin 40) : broadcastTo S5000x40 (shapeCast S5000x1 w h1) h2 (ix2 p q) = w (ix1 p) :=
  (broadcastTo_a1_ab_apply _ h2 p q).trans (shapeCast_a_a1_apply w h1 p 0)

/-- The same with the logarithm taken on the column. -/
theorem tile_keepdims_log (w : FVec Ideal S5000 .f32) (h1 : S5000.ShapeCasts S5000x1) (h2 : S5000x1.Broadcasts S5000x40)
    (p : Fin 5000) (q : Fin 40) : broadcastTo S5000x40 (log (shapeCast S5000x1 w h1)) h2 (ix2 p q) = Ideal.log (w (ix1 p)) :=
  (broadcastTo_a1_ab_apply _ h2 p q).trans (congrArg Ideal.log (shapeCast_a_a1_apply w h1 p 0))

/-- The tile's biased entries: the block's entry plus the bias row's entry of the same column. -/
theorem tile_bias (x0 : Vec Ideal S5000x40 .f32) (x1 : Vec Ideal S1x40 .f32) (h : S1x40.Broadcasts S5000x40) (p : Fin 5000) (k : Fin 40) :
    (addf x0 (broadcastTo S5000x40 x1 h) : FVec Ideal S5000x40 .f32) (ix2 p k) = x0 (ix2 p k) + x1 (ix2 (0 : Fin 1) k) :=
  congrArg (x0 (ix2 p k) + ·) (broadcastTo_1b_ab_apply x1 h p k)

/-- The tile's row-wise log-softmax, entry by entry: v − max − log Σ exp (v − max), the maximum and the sum taken along the
    row and put back on every column. -/
theorem tile_logSoftmax (v : FVec Ideal S5000x40 .f32) (h : S5000x40.Reduces [1] S5000) (hφ : FKind.Formats .f32)
    (hm : (0xFF800000#32 : BitVec 32) = 0xFF800000#32) (hs : (0x00000000#32 : BitVec 32) = 0x00000000#32)
    (h1 : S5000.ShapeCasts S5000x1) (h2 : S5000x1.Broadcasts S5000x40) (p : Fin 5000) (q : Fin 40) :
    subf (subf v (broadcastTo S5000x40 (shapeCast S5000x1 (multiReduction .maximumf [1] S5000 v 0xFF800000#32 h hφ hm) h1) h2))
      (broadcastTo S5000x40 (log (shapeCast S5000x1 (multiReduction .add [1] S5000
        (exp (subf v (broadcastTo S5000x40 (shapeCast S5000x1 (multiReduction .maximumf [1] S5000 v 0xFF800000#32 h hφ hm) h1) h2)))
        0x00000000#32 h hφ hs) h1)) h2) (ix2 p q)
      = rowLogSoftmax (fun k => v (ix2 p k)) q := by
  have hM : ∀ k : Fin 40, broadcastTo S5000x40 (shapeCast S5000x1 (multiReduction .maximumf [1] S5000 v 0xFF800000#32 h hφ hm) h1) h2 (ix2 p k)
      = rowMax fun k => v (ix2 p k) := fun k => (tile_keepdims _ h1 h2 p k).trans (tile_rowMax v h hφ hm p)
  generalize broadcastTo S5000x40 (shapeCast S5000x1 (multiReduction .maximumf [1] S5000 v 0xFF800000#32 h hφ hm) h1) h2 = M at hM ⊢
  unfold rowLogSoftmax
  refine congrArg₂ (· - ·) (congrArg (v (ix2 p q) - ·) (hM q)) ?_
  refine (tile_keepdims_log _ h1 h2 p q).trans (congrArg Ideal.log ?_)
  refine (tile_rowSum _ h hφ hs p).trans (Finset.sum_congr rfl fun k _ => ?_)
  show Ideal.exp (v (ix2 p k) - M (ix2 p k)) = _
  rw [hM k]

/-- WHAT THE BODY STORES, entry by entry: row `p` of the stored tile is the log-softmax of row `p` of the loaded block plus the bias row. -/
theorem k3_pay1_apply (x0 : Vec Ideal S5000x40 .f32) (x1 : Vec Ideal S1x40 .f32) (p : Fin 5000) (q : Fin 40) :
    k3_pay1 (F := Ideal) x0 x1 (ix2 p q) = rowLogSoftmax (fun k => x0 (ix2 p k) + x1 (ix2 (0 : Fin 1) k)) q := by
  unfold k3_pay1
  simp only [shapeCast_self]
  exact (tile_logSoftmax _ _ _ _ _ _ _ p q).trans
    (congrArg (fun v => rowLogSoftmax v q) (funext fun k => tile_bias x0 x1 _ p k))
/-! ## The specification, entry by entry -/

/-- A one-row table broadcast along the rows reads, at `(r, k)`, the row's entry of column `k`. -/
theorem host_rowBroadcast (brow : FVec Ideal S1x40 .f32) (hb : S1x40.BroadcastsInDim S100000x40 (![0, 1] : Fin 2 → Fin S100000x40.rank))
    (r : Fin 100000) (k : Fin 40) : broadcastInDim S100000x40 ![0, 1] hb brow (ix2 r k) = brow (ix2 (0 : Fin 1) k) :=
  broadcastInDim_apply _ hb brow (ix2 r k) (ix2 (0 : Fin 1) k) (fun a => match a with
    | ⟨0, _⟩ => by show 0 = if (1 : Nat) = 1 then 0 else r.val; rw [if_pos rfl]
    | ⟨1, _⟩ => by show k.val = if (40 : Nat) = 1 then 0 else k.val; rw [if_neg (by decide)])

/-- A per-row value, made a column and broadcast along the rows, reads its row's value at every column. -/
theorem host_keepdims (w : FVec Ideal S100000 .f32) (hb1 : S100000.BroadcastsInDim Cert.ReferenceIdeal.S100000x1 (![0] : Fin 1 → Fin Cert.ReferenceIdeal.S100000x1.rank))
    (hb2 : Cert.ReferenceIdeal.S100000x1.BroadcastsInDim S100000x40 (![0, 1] : Fin 2 → Fin S100000x40.rank)) (r : Fin 100000) (q : Fin 40) :
    broadcastInDim S100000x40 ![0, 1] hb2 (broadcastInDim Cert.ReferenceIdeal.S100000x1 ![0] hb1 w) (ix2 r q) = w (ix1 r) :=
  (broadcastInDim_apply _ hb2 _ (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])).trans
  (broadcastInDim_apply _ hb1 w (ix2 r (0 : Fin 1)) (ix1 r) (fun a => match a with
    | ⟨0, _⟩ => by show r.val = if (100000 : Nat) = 1 then 0 else r.val; rw [if_neg (by decide)]))

/-- The same with the logarithm taken on the column. -/
theorem host_keepdims_log (w : FVec Ideal S100000 .f32) (hb1 : S100000.BroadcastsInDim Cert.ReferenceIdeal.S100000x1 (![0] : Fin 1 → Fin Cert.ReferenceIdeal.S100000x1.rank))
    (hb2 : Cert.ReferenceIdeal.S100000x1.BroadcastsInDim S100000x40 (![0, 1] : Fin 2 → Fin S100000x40.rank)) (r : Fin 100000) (q : Fin 40) :
    broadcastInDim S100000x40 ![0, 1] hb2 (Host.log (broadcastInDim Cert.ReferenceIdeal.S100000x1 ![0] hb1 w)) (ix2 r q) = Ideal.log (w (ix1 r)) :=
  (broadcastInDim_apply _ hb2 _ (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])).trans
  (congrArg Ideal.log (broadcastInDim_apply _ hb1 w (ix2 r (0 : Fin 1)) (ix1 r) (fun a => match a with
    | ⟨0, _⟩ => by show r.val = if (100000 : Nat) = 1 then 0 else r.val; rw [if_neg (by decide)])))
/-- Dropping the columns of a 100000 × 40 table leaves its 100000 rows. -/
theorem reduces_rows : S100000x40.Reduces [1] S100000 := by decide

/-- The host's maximum along the rows, from −∞, at row `r`, is that row's largest entry. -/
theorem host_reduceMax (v : FVec Ideal S100000x40 .f32) (h' : S100000x40.ReducesTo [1] S100000) (hu : 0 < S_.numel) (r : Fin 100000) :
    Host.reduce FloatOps.maximumf v (constant (F := Ideal) S_ .f32 0xFF800000#32) h' hu (ix1 r) = rowMax fun k => v (ix2 r k) := by
  refine (Host.reduce_eq_fold_single FloatOps.maximumf v _ h' reduces_rows hu (ix1 r)).trans ?_
  show (Finset.univ : Finset (Fin 40)).fold max (Ideal.ofBits .f32 0xFF800000#32) (v ∘ reduces_rows.lift (ix1 r)) = _
  rw [negInf_f32]
  exact congrArg (fun f => (Finset.univ : Finset (Fin 40)).fold max (⊥ : EReal) f) (funext fun k => congrArg v (lift_row reduces_rows r k))

/-- A table of −∞ over the rows reads −∞ at every row. -/
theorem host_negInf_rows (hb0 : S_.BroadcastsInDim S100000 (![] : Fin 0 → Fin S100000.rank)) (r : Fin 100000) :
    broadcastInDim S100000 ![] hb0 (constant (F := Ideal) S_ .f32 0xFF800000#32) (ix1 r) = (⊥ : EReal) :=
  (broadcastInDim_apply _ hb0 _ (ix1 r) ix0 (fun a => a.elim0)).trans ((constant_apply _ ix0).trans negInf_f32)

/-- The host takes that maximum once more against a table of −∞: nothing changes. -/
theorem host_rowMax (v : FVec Ideal S100000x40 .f32) (hb0 : S_.BroadcastsInDim S100000 (![] : Fin 0 → Fin S100000.rank))
    (h' : S100000x40.ReducesTo [1] S100000) (hu : 0 < S_.numel) (r : Fin 100000) :
    (maximumf (broadcastInDim S100000 ![] hb0 (constant (F := Ideal) S_ .f32 0xFF800000#32))
      (Host.reduce FloatOps.maximumf v (constant (F := Ideal) S_ .f32 0xFF800000#32) h' hu) : FVec Ideal S100000 .f32) (ix1 r)
      = rowMax fun k => v (ix2 r k) :=
  (maximumf_apply _ _ (ix1 r)).trans ((congrArg₂ max (host_negInf_rows hb0 r) (host_reduceMax v h' hu r)).trans (max_bot_left _))

/-- The host's sum along the rows, from zero, at row `r`, is the sum of that row's entries. -/
theorem host_rowSum (x : FVec Ideal S100000x40 .f32) (h' : S100000x40.ReducesTo [1] S100000) (hu : 0 < S_.numel) (r : Fin 100000) :
    Host.reduceAdd (F := Ideal) x (constant (F := Ideal) S_ .f32 0x00000000#32) h' hu (ix1 r) = ∑ k : Fin 40, x (ix2 r k) := by
  simp only [Host.reduceAdd, Ideal.hostReduceAdd_def]
  refine (Ideal.hostReduceAdd_single h' reduces_rows x _ (ix1 r)).trans ?_
  rw [constant_apply, Ideal.ofBits_zero_f32, zero_add]
  exact Finset.sum_congr rfl fun k _ => congrArg x (lift_row reduces_rows r k)

/-- The host's row-wise log-softmax, entry by entry: v − max − log Σ exp (v − max), the maximum and the sum taken along the
    row and put back on every column. -/
theorem host_logSoftmax (v : FVec Ideal S100000x40 .f32) (hb0 : S_.BroadcastsInDim S100000 (![] : Fin 0 → Fin S100000.rank))
    (h' : S100000x40.ReducesTo [1] S100000) (hu : 0 < S_.numel)
    (hb1 : S100000.BroadcastsInDim Cert.ReferenceIdeal.S100000x1 (![0] : Fin 1 → Fin Cert.ReferenceIdeal.S100000x1.rank))
    (hb2 : Cert.ReferenceIdeal.S100000x1.BroadcastsInDim S100000x40 (![0, 1] : Fin 2 → Fin S100000x40.rank)) (r : Fin 100000) (q : Fin 40) :
    subf (subf v (broadcastInDim S100000x40 ![0, 1] hb2 (broadcastInDim Cert.ReferenceIdeal.S100000x1 ![0] hb1
        (maximumf (broadcastInDim S100000 ![] hb0 (constant (F := Ideal) S_ .f32 0xFF800000#32))
          (Host.reduce FloatOps.maximumf v (constant (F := Ideal) S_ .f32 0xFF800000#32) h' hu)))))
      (broadcastInDim S100000x40 ![0, 1] hb2 (Host.log (broadcastInDim Cert.ReferenceIdeal.S100000x1 ![0] hb1
        (Host.reduceAdd (Host.exp (subf v (broadcastInDim S100000x40 ![0, 1] hb2 (broadcastInDim Cert.ReferenceIdeal.S100000x1 ![0] hb1
            (maximumf (broadcastInDim S100000 ![] hb0 (constant (F := Ideal) S_ .f32 0xFF800000#32))
              (Host.reduce FloatOps.maximumf v (constant (F := Ideal) S_ .f32 0xFF800000#32) h' hu))))))
          (constant (F := Ideal) S_ .f32 0x00000000#32) h' hu)))) (ix2 r q)
      = rowLogSoftmax (fun k => v (ix2 r k)) q := by
  have hM : ∀ k : Fin 40, broadcastInDim S100000x40 ![0, 1] hb2 (broadcastInDim Cert.ReferenceIdeal.S100000x1 ![0] hb1
        (maximumf (broadcastInDim S100000 ![] hb0 (constant (F := Ideal) S_ .f32 0xFF800000#32))
          (Host.reduce FloatOps.maximumf v (constant (F := Ideal) S_ .f32 0xFF800000#32) h' hu))) (ix2 r k)
      = rowMax fun k => v (ix2 r k) := fun k => (host_keepdims _ hb1 hb2 r k).trans (host_rowMax v hb0 h' hu r)
  generalize broadcastInDim S100000x40 ![0, 1] hb2 (broadcastInDim Cert.ReferenceIdeal.S100000x1 ![0] hb1
        (maximumf (broadcastInDim S100000 ![] hb0 (constant (F := Ideal) S_ .f32 0xFF800000#32))
          (Host.reduce FloatOps.maximumf v (constant (F := Ideal) S_ .f32 0xFF800000#32) h' hu))) = M at hM ⊢
  unfold rowLogSoftmax
  refine (subf_apply _ _ (ix2 r q)).trans (congrArg₂ (· - ·) ((subf_apply v M (ix2 r q)).trans (congrArg (v (ix2 r q) - ·) (hM q))) ?_)
  refine (host_keepdims_log _ hb1 hb2 r q).trans (congrArg Ideal.log ?_)
  refine (host_rowSum _ h' hu r).trans (Finset.sum_congr rfl fun k _ => ?_)
  show Ideal.exp (v (ix2 r k) - M (ix2 r k)) = _
  rw [hM k]

/-- THE SPECIFICATION, entry by entry: row `r` of the result is the log-softmax of row `r` of the table plus the bias row. -/
theorem biasLogSoftmax_apply (a : FVec Ideal S100000x40 .f32) (brow : FVec Ideal S1x40 .f32) (r : Fin 100000) (q : Fin 40) :
    Cert.Gcn.biasLogSoftmax (F := Ideal) a brow (ix2 r q) = rowLogSoftmax (fun k => a (ix2 r k) + brow (ix2 (0 : Fin 1) k)) q := by
  unfold Cert.Gcn.biasLogSoftmax Cert.Gcn.logSoftmax
  dsimp only
  exact (host_logSoftmax _ _ _ _ _ _ r q).trans
    (congrArg (fun v => rowLogSoftmax v q) (funext fun k => congrArg (a (ix2 r k) + ·) (host_rowBroadcast brow _ r k)))

/-! ## From blocks to the array -/

/-- The zero offsets of a whole-buffer access, as a constant function. -/
theorem zero_offsets : (![0, 0] : Fin 2 → Nat) = fun _ => 0 := funext fun a => by fin_cases a <;> rfl

/-- The windows' index maps, decided over the grid: the input block and the output block of a point are the same block of
    rows, below 20, and span all the columns; the bias row's block is always the whole row. -/
theorem block_indices : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) < 20
    ∧ win3_2.index t (1 : Fin 2) = 0 :=
  (by decide +kernel : ∀ t : Fin grid3.N, _)

/-- Every block of rows is some point's output block. -/
theorem block_onto : ∀ b : Fin 20, ∃ t : Fin cfg3.N, win3_2.index t = ![b.val, 0] :=
  (by decide +kernel : ∀ b : Fin 20, ∃ t : Fin grid3.N, win3_2.index t = ![b.val, 0])

/-- The table block of point `t` read at `(p, k)` is the table at row (block index) · 5000 + p, column `k`. -/
theorem table_block_read (c : Dev nD) (t : Fin cfg3.N) (p : Fin 5000) (k : Fin 40) (r : Fin 100000)
    (hr : r.val = win3_2.index t (0 : Fin 2) * 5000 + 1 * p.val) :
    iblk3 V c 0 t (ix2 p k : S5000x40.Idx) = V c main_v59 (ix2 r k : S100000x40.Idx) := by
  obtain ⟨e0, e1, -, -, -, -⟩ := block_indices t
  show V c main_v59 (((cfg3.win 0).blk t).view.emb (ix2 p k : S5000x40.Idx)) = V c main_v59 (ix2 r k : S100000x40.Idx)
  refine congrArg (V c main_v59) (funext fun a => Fin.ext ?_)
  match a with
  | ⟨0, _⟩ => show win3_0.index t (0 : Fin 2) * 5000 + 1 * p.val = r.val; omega
  | ⟨1, _⟩ => show win3_0.index t (1 : Fin 2) * 40 + 1 * k.val = k.val; omega

/-- The bias block of any point is the bias row itself. -/
theorem bias_block_read (c : Dev nD) (t : Fin cfg3.N) (k : Fin 40) :
    iblk3 V c 1 t (ix2 (0 : Fin 1) k : S1x40.Idx) = V c main_v60 (ix2 (0 : Fin 1) k : S1x40.Idx) := by
  obtain ⟨-, -, e2, e3, -, -⟩ := block_indices t
  show V c main_v60 (((cfg3.win 1).blk t).view.emb (ix2 (0 : Fin 1) k : S1x40.Idx)) = V c main_v60 (ix2 (0 : Fin 1) k : S1x40.Idx)
  refine congrArg (V c main_v60) (funext fun a => Fin.ext ?_)
  match a with
  | ⟨0, _⟩ => show win3_1.index t (0 : Fin 2) * 1 + 1 * 0 = 0; omega
  | ⟨1, _⟩ => show win3_1.index t (1 : Fin 2) * 40 + 1 * k.val = k.val; omega

/-- WHAT POINT `t` WRITES BACK is block `t` of the specification's table of the arrays as the region finds them. -/
theorem flushed_eq (c : Dev nD) (t : Fin cfg3.N) :
    (dat3 V c).flushed 2 t
      = ((cfg3.win 2).blk t).view.read (Elt Ideal) (Cert.Gcn.biasLogSoftmax (F := Ideal) (V c main_v59) (V c main_v60)) := by
  show (cfg3.win 2).cut (grid3.coords t) ((dat3 V c).after 2 t) = _
  rw [after3_2]
  unfold out3_2
  rw [View.canon_unit_zero zero_offsets]
  simp only [View.ld_unit_zero (S := S5000x40) zero_offsets, View.ld_unit_zero (S := S1x40) zero_offsets]
  obtain ⟨-, -, -, -, e4, e5⟩ := block_indices t
  funext j
  obtain ⟨p, q, rfl⟩ : ∃ (p : Fin 5000) (q : Fin 40), j = ix2 p q := ⟨j 0, j 1, eq_ix2 j⟩
  have hp : p.val < 5000 := p.isLt
  have hi : ((cfg3.win 2).blk t).view.emb (ix2 p q : S5000x40.Idx)
      = (ix2 (⟨win3_2.index t (0 : Fin 2) * 5000 + 1 * p.val, by omega⟩ : Fin 100000) q : S100000x40.Idx) := by
    funext a; apply Fin.ext
    match a with
    | ⟨0, _⟩ => rfl
    | ⟨1, _⟩ => show win3_2.index t (1 : Fin 2) * 40 + 1 * q.val = q.val; omega
  show k3_pay1 (F := Ideal) (iblk3 V c 0 t) (iblk3 V c 1 t) (ix2 p q)
      = Cert.Gcn.biasLogSoftmax (F := Ideal) (V c main_v59) (V c main_v60) (((cfg3.win 2).blk t).view.emb (ix2 p q : S5000x40.Idx))
  refine (k3_pay1_apply _ _ p q).trans (Eq.trans ?_ (congrArg (Cert.Gcn.biasLogSoftmax (F := Ideal) (V c main_v59) (V c main_v60)) hi.symm))
  refine Eq.trans ?_ (biasLogSoftmax_apply _ _ _ q).symm
  exact congrArg (fun v => rowLogSoftmax v q) (funext fun k =>
    congrArg₂ (· + ·) (table_block_read V c t p k _ rfl) (bias_block_read V c t k))

/-- An index of the table is in point `t`'s output block iff each coordinate is in the block's range on its axis. -/
theorem mem_block (t : Fin cfg3.N) (i : S100000x40.Idx) :
    i ∈ ((cfg3.win 2).blk t).view.set ↔ ∀ a : Fin 2, win3_2.index t a * S5000x40.size a ≤ (i a).val
      ∧ (i a).val < win3_2.index t a * S5000x40.size a + S5000x40.size a := by
  show i ∈ ((View.whole main_v61).slice (win3_2.rect t)).set ↔ _
  rw [View.set_slice_whole, Rect.mem_set_unit]
  exact Iff.rfl

/-- THE COVER: row `r` of the table lies in the output block of the point whose block index is r / 5000. -/
theorem cover (i : S100000x40.Idx) :
    ∃ t : Fin cfg3.N, (cfg3.win 2).flush t = true ∧ i ∈ ((cfg3.win 2).blk t).view.set := by
  have hi0 : (i 0).val < 100000 := (i 0).isLt
  have hi1 : (i 1).val < 40 := (i 1).isLt
  obtain ⟨t, ht⟩ := block_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 40 ≤ (i 1).val ∧ (i 1).val < win3_2.index t (1 : Fin 2) * 40 + 40; omega

/-- What the last region leaves in its result array: bias added to every row, then the row-wise log-softmax. -/
theorem final3 (c : Dev nD) :
    (dat3 V c).arrAt 2 cfg3.N = Cert.Gcn.biasLogSoftmax (F := Ideal) (V c main_v59) (V c main_v60) := by
  exact (dat3 V c).arrAt_eq_of_cover 2 _ (fun t _ => flushed_eq V c t) cover

end Cert.KernelIdeal.RegionVal

end
-- ==== Proof.KValue.lean ====
/-
  The tiled program's result, read back through its run.

  The run's buffer contents at each boundary are a fold from the launch memory (the generated `Gen.W0` … `Gen.W9`): a
  host stretch applies its operations, a region replaces its output array by what its grid points wrote back and leaves
  every other buffer alone. Reading the result buffer back through that fold, boundary by boundary, gives the
  specification's network of the six launch arrays: the edge lists and weights are made before the first region and
  kept to the end; each region's output array is the specification's layer step of the arrays it found.
-/
import proofs.«147935_j84670985273813_1_alg».proof.Proof.Gen.KernelIdeal.Frame
import proofs.«147935_j84670985273813_1_alg».proof.Proof.Spec
import proofs.«147935_j84670985273813_1_alg».proof.Proof.KHost
import proofs.«147935_j84670985273813_1_alg».proof.Proof.Region0
import proofs.«147935_j84670985273813_1_alg».proof.Proof.Region1
import proofs.«147935_j84670985273813_1_alg».proof.Proof.Region2
import proofs.«147935_j84670985273813_1_alg».proof.Proof.Region3

set_option maxRecDepth 16384

noncomputable section

namespace Cert.KernelIdeal.KVal

open Cert.KernelIdeal Cert.KernelIdeal.Gen Idealize.ShloMosaic Idealize.ShloMosaic.TcCoe Idealize.SL.Sem Idealize.ShloMosaic.StableHlo
open Cert.KernelIdeal.HostVal Cert.KernelIdeal.RegionVal

variable (m : (ℓ : Loc nD τ sig) → Buf (Elt Ideal) ℓ) (ρ : Dev nD → PrngReg) (c : Dev nD)

/-! ## At the first region's entry -/

theorem W3_src : W3 m ρ c (Proc.devRef .tc main_v3) = Cert.Gcn.srcOf (m ((c : Thread nD τ).loc main_arg1)) :=
  entry_src (W0 m ρ c)
theorem W3_dst : W3 m ρ c (Proc.devRef .tc main_v6) = Cert.Gcn.dstOf (m ((c : Thread nD τ).loc main_arg1)) :=
  entry_dst (W0 m ρ c)
theorem W3_norm : W3 m ρ c (Proc.devRef .tc main_v29)
    = Cert.Gcn.normOf (Cert.Gcn.srcOf (m ((c : Thread nD τ).loc main_arg1))) (Cert.Gcn.dstOf (m ((c : Thread nD τ).loc main_arg1))) :=
  entry_norm (W0 m ρ c)
/-- No stretch before the first region writes an argument. -/
theorem W3_arg (r : Ref sig .tc) (h0 : r ∉ writes0) (h1 : r ∉ writes0_1) (h2 : r ∉ writes0_2) :
    W3 m ρ c (Proc.devRef .tc r) = m ((c : Thread nD τ).loc r) :=
  entry_kept (W0 m ρ c) r h0 h1 h2

/-! ## After the first region: x · W1 -/

theorem W4_prod : W4 m ρ c (Proc.devRef .tc main_v30)
    = Cert.Gcn.mm1 (F := Ideal) (m ((c : Thread nD τ).loc main_arg0)) (m ((c : Thread nD τ).loc main_arg2)) := by
  refine (W4_arr m ρ c 2).trans ((final0 (V3 m ρ) c).trans ?_)
  show Cert.Gcn.mm1 (F := Ideal) (W3 m ρ c (Proc.devRef .tc main_arg0)) (W3 m ρ c (Proc.devRef .tc main_arg2)) = _
  rw [W3_arg m ρ c main_arg0 (by decide) (by decide) (by decide), W3_arg m ρ c main_arg2 (by decide) (by decide) (by decide)]

/-- The first region leaves every buffer but its three arrays alone. -/
theorem W4_keep (r : Ref sig .tc) (h : ∀ w, Pipeline.arrRef spec0 w ≠ r) :
    W4 m ρ c (Proc.devRef .tc r) = W3 m ρ c (Proc.devRef .tc r) := W4_of_ne m ρ c r h

/-! ## At the second region's entry: the first aggregation and the first bias row -/

theorem W5_agg : W5 m ρ c (Proc.devRef .tc main_v43) = (Cert.Gcn.seg64 (Cert.Gcn.srcOf (m ((c : Thread nD τ).loc main_arg1))) (Cert.Gcn.dstOf (m ((c : Thread nD τ).loc main_arg1))) (Cert.Gcn.normOf (Cert.Gcn.srcOf (m ((c : Thread nD τ).loc main_arg1))) (Cert.Gcn.dstOf (m ((c : Thread nD τ).loc main_arg1)))) (Cert.Gcn.mm1 (F := Ideal) (m ((c : Thread nD τ).loc main_arg0)) (m ((c : Thread nD τ).loc main_arg2)))) := by
  show after hostOps1 (W4 m ρ c) (Proc.devRef .tc main_v43) = _
  rw [s1_agg, W4_keep m ρ c main_v3 (by decide), W4_keep m ρ c main_v6 (by decide), W4_keep m ρ c main_v29 (by decide),
    W4_prod, W3_src, W3_dst, W3_norm]
theorem W5_row : W5 m ρ c (Proc.devRef .tc main_v44) = Cert.Gcn.row64 (m ((c : Thread nD τ).loc main_arg3)) := by
  show after hostOps1 (W4 m ρ c) (Proc.devRef .tc main_v44) = _
  rw [s1_row, W4_keep m ρ c main_arg3 (by decide), W3_arg m ρ c main_arg3 (by decide) (by decide) (by decide)]
theorem W5_keep (r : Ref sig .tc) (h1 : r ∉ writes1) (h0 : ∀ w, Pipeline.arrRef spec0 w ≠ r) :
    W5 m ρ c (Proc.devRef .tc r) = W3 m ρ c (Proc.devRef .tc r) := by
  show after hostOps1 (W4 m ρ c) (Proc.devRef .tc r) = _
  rw [kept1 _ r h1, W4_keep m ρ c r h0]

/-! ## After the second region: bias and clamp -/

theorem W6_relu : W6 m ρ c (Proc.devRef .tc main_v45) = (Cert.Gcn.biasRelu (Cert.Gcn.seg64 (Cert.Gcn.srcOf (m ((c : Thread nD τ).loc main_arg1))) (Cert.Gcn.dstOf (m ((c : Thread nD τ).loc main_arg1))) (Cert.Gcn.normOf (Cert.Gcn.srcOf (m ((c : Thread nD τ).loc main_arg1))) (Cert.Gcn.dstOf (m ((c : Thread nD τ).loc main_arg1)))) (Cert.Gcn.mm1 (F := Ideal) (m ((c : Thread nD τ).loc main_arg0)) (m ((c : Thread nD τ).loc main_arg2)))) (Cert.Gcn.row64 (m ((c : Thread nD τ).loc main_arg3)))) := by
  refine (W6_arr m ρ c 2).trans ((final1 (V5 m ρ) c).trans ?_)
  show Cert.Gcn.biasRelu (F := Ideal) (W5 m ρ c (Proc.devRef .tc main_v43)) (W5 m ρ c (Proc.devRef .tc main_v44)) = _
  rw [W5_agg, W5_row]
theorem W6_keep (r : Ref sig .tc) (h : ∀ w, Pipeline.arrRef spec1 w ≠ r) (h1 : r ∉ writes1) (h0 : ∀ w, Pipeline.arrRef spec0 w ≠ r) :
    W6 m ρ c (Proc.devRef .tc r) = W3 m ρ c (Proc.devRef .tc r) :=
  (W6_of_ne m ρ c r h).trans (W5_keep m ρ c r h1 h0)

/-! ## After the third region: h · W2 -/

theorem W7_prod : W7 m ρ c (Proc.devRef .tc main_v46) = (Cert.Gcn.mm2 (Cert.Gcn.biasRelu (Cert.Gcn.seg64 (Cert.Gcn.srcOf (m ((c : Thread nD τ).loc main_arg1))) (Cert.Gcn.dstOf (m ((c : Thread nD τ).loc main_arg1))) (Cert.Gcn.normOf (Cert.Gcn.srcOf (m ((c : Thread nD τ).loc main_arg1))) (Cert.Gcn.dstOf (m ((c : Thread nD τ).loc main_arg1)))) (Cert.Gcn.mm1 (F := Ideal) (m ((c : Thread nD τ).loc main_arg0)) (m ((c : Thread nD τ).loc main_arg2)))) (Cert.Gcn.row64 (m ((c : Thread nD τ).loc main_arg3)))) (m ((c : Thread nD τ).loc main_arg4))) := by
  refine (W7_arr m ρ c 2).trans ((final2 (V6 m ρ) c).trans ?_)
  show Cert.Gcn.mm2 (F := Ideal) (W6 m ρ c (Proc.devRef .tc main_v45)) (W6 m ρ c (Proc.devRef .tc main_arg4)) = _
  rw [W6_relu, W6_keep m ρ c main_arg4 (by decide) (by decide) (by decide), W3_arg m ρ c main_arg4 (by decide) (by decide) (by decide)]
theorem W7_keep (r : Ref sig .tc) (h2 : ∀ w, Pipeline.arrRef spec2 w ≠ r) (h : ∀ w, Pipeline.arrRef spec1 w ≠ r) (h1 : r ∉ writes1)
    (h0 : ∀ w, Pipeline.arrRef spec0 w ≠ r) : W7 m ρ c (Proc.devRef .tc r) = W3 m ρ c (Proc.devRef .tc r) :=
  (W7_of_ne m ρ c r h2).trans (W6_keep m ρ c r h h1 h0)

/-! ## At the fourth region's entry: the second aggregation and the second bias row -/

theorem W8_agg : W8 m ρ c (Proc.devRef .tc main_v59) = (Cert.Gcn.seg40 (Cert.Gcn.srcOf (m ((c : Thread nD τ).loc main_arg1))) (Cert.Gcn.dstOf (m ((c : Thread nD τ).loc main_arg1))) (Cert.Gcn.normOf (Cert.Gcn.srcOf (m ((c : Thread nD τ).loc main_arg1))) (Cert.Gcn.dstOf (m ((c : Thread nD τ).loc main_arg1)))) (Cert.Gcn.mm2 (Cert.Gcn.biasRelu (Cert.Gcn.seg64 (Cert.Gcn.srcOf (m ((c : Thread nD τ).loc main_arg1))) (Cert.Gcn.dstOf (m ((c : Thread nD τ).loc main_arg1))) (Cert.Gcn.normOf (Cert.Gcn.srcOf (m ((c : Thread nD τ).loc main_arg1))) (Cert.Gcn.dstOf (m ((c : Thread nD τ).loc main_arg1)))) (Cert.Gcn.mm1 (F := Ideal) (m ((c : Thread nD τ).loc main_arg0)) (m ((c : Thread nD τ).loc main_arg2)))) (Cert.Gcn.row64 (m ((c : Thread nD τ).loc main_arg3)))) (m ((c : Thread nD τ).loc main_arg4)))) := by
  show after hostOps3 (W7 m ρ c) (Proc.devRef .tc main_v59) = _
  rw [s3_agg, W7_keep m ρ c main_v3 (by decide) (by decide) (by decide) (by decide), W7_keep m ρ c main_v6 (by decide) (by decide) (by decide) (by decide),
    W7_keep m ρ c main_v29 (by decide) (by decide) (by decide) (by decide), W7_prod, W3_src, W3_dst, W3_norm]
theorem W8_row : W8 m ρ c (Proc.devRef .tc main_v60) = Cert.Gcn.row40 (m ((c : Thread nD τ).loc main_arg5)) := by
  show after hostOps3 (W7 m ρ c) (Proc.devRef .tc main_v60) = _
  rw [s3_row, W7_keep m ρ c main_arg5 (by decide) (by decide) (by decide) (by decide), W3_arg m ρ c main_arg5 (by decide) (by decide) (by decide)]

/-! ## The result -/

/-- What the tiled program leaves in its result array: the network of the six launch arrays. -/
theorem result : W9 m ρ c (Proc.devRef .tc main_v61)
    = Cert.Gcn.gcn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ((final3 (V8 m ρ) c).trans ?_)
  show Cert.Gcn.biasLogSoftmax (F := Ideal) (W8 m ρ c (Proc.devRef .tc main_v59)) (W8 m ρ c (Proc.devRef .tc main_v60)) = _
  rw [W8_agg, W8_row]
  rfl

end Cert.KernelIdeal.KVal

end
-- ==== Proof.RefValue.lean ====
/-
  The host program's value: its operations' fold, read in four stretches, is the specification's network.

  The host program is one straight line of array operations. Its first forty build the edge lists and the edge
  weights; the next twenty-four are the first layer (product with W1, aggregation along the edges, bias, clamp at
  zero) and the second layer's product with W2; the next nineteen aggregate again and add the second bias; the last
  fifteen take the row-wise log-softmax. Each stretch is read at an arbitrary content of the buffers it starts from.
-/
import proofs.«147935_j84670985273813_1_alg».proof.Proof.RefRun
import proofs.«147935_j84670985273813_1_alg».proof.Proof.Spec
import Idealize.ShloMosaic.Lib.Pipeline.Frame

noncomputable section

namespace Cert.ReferenceIdeal.RefVal

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- Edge lists and edge weights. -/
abbrev opsEdges : List (HloOp τ sig (Elt F)) := (ops (F := F)).take 40
/-- The first layer and the second layer's product. -/
abbrev opsLayer1 : List (HloOp τ sig (Elt F)) := ((ops (F := F)).drop 40).take 24
/-- The second aggregation and its bias. -/
abbrev opsLayer2 : List (HloOp τ sig (Elt F)) := (((ops (F := F)).drop 40).drop 24).take 19
/-- The row-wise log-softmax. -/
abbrev opsLsm : List (HloOp τ sig (Elt F)) := (((ops (F := F)).drop 40).drop 24).drop 19

theorem ops_split : (ops (F := F)) = opsEdges ++ (opsLayer1 ++ (opsLayer2 ++ opsLsm)) := by
  simp only [opsEdges, opsLayer1, opsLayer2, opsLsm, List.take_append_drop]

variable (Wp : Valuation τ sig (Elt F))

/-- Contents carried to a buffer's own type and back are the contents. -/
theorem ofBuf_toBuf {T : BufTy} (x : TRef sig T) (v : T.Contents (Elt F)) : x.ofBuf (x.toBuf v) = v := by
  simp only [TRef.ofBuf, TRef.toBuf, cast_cast, cast_eq]

/-! ## Edge lists and weights -/

set_option maxHeartbeats 2000000 in
theorem edges_src : after opsEdges Wp (Proc.devRef .tc main_v3) = Cert.Gcn.srcOf (Wp (Proc.devRef .tc main_arg1)) := by
  simp only [opsEdges, ops, List.take_succ_cons, List.take_zero]
  after_results; rfl
set_option maxHeartbeats 2000000 in
theorem edges_dst : after opsEdges Wp (Proc.devRef .tc main_v6) = Cert.Gcn.dstOf (Wp (Proc.devRef .tc main_arg1)) := by
  simp only [opsEdges, ops, List.take_succ_cons, List.take_zero]
  after_results; rfl
set_option maxHeartbeats 4000000 in
theorem edges_norm : after opsEdges Wp (Proc.devRef .tc main_v29)
    = Cert.Gcn.normOf (Cert.Gcn.srcOf (Wp (Proc.devRef .tc main_arg1))) (Cert.Gcn.dstOf (Wp (Proc.devRef .tc main_arg1))) := by
  simp only [opsEdges, ops, List.take_succ_cons, List.take_zero]
  after_results_simp <;> rfl
set_option maxHeartbeats 2000000 in
/-- The stretch writes no argument. -/
theorem edges_arg (k : Fin 6) : after opsEdges Wp (Proc.devRef .tc (![main_arg0, main_arg1, main_arg2, main_arg3, main_arg4, main_arg5] k))
    = Wp (Proc.devRef .tc (![main_arg0, main_arg1, main_arg2, main_arg3, main_arg4, main_arg5] k)) := by
  simp only [opsEdges, ops, List.take_succ_cons, List.take_zero]
  fin_cases k <;> (after_results_simp <;> rfl)

/-! ## The first layer, and the second layer's product -/

set_option maxHeartbeats 4000000 in
theorem layer1_out : after opsLayer1 Wp (Proc.devRef .tc main_v48)
    = Cert.Gcn.mm2 (Cert.Gcn.biasRelu (Cert.Gcn.seg64 (Wp (Proc.devRef .tc main_v3)) (Wp (Proc.devRef .tc main_v6)) (Wp (Proc.devRef .tc main_v29))
        (Cert.Gcn.mm1 (Wp (Proc.devRef .tc main_arg0)) (Wp (Proc.devRef .tc main_arg2)))) (Cert.Gcn.row64 (Wp (Proc.devRef .tc main_arg3))))
        (Wp (Proc.devRef .tc main_arg4)) := by
  simp only [opsLayer1, ops, List.drop_succ_cons, List.drop_zero, List.take_succ_cons, List.take_zero]
  after_results_simp <;> rfl
set_option maxHeartbeats 2000000 in
/-- The stretch leaves the edge lists, the weights and the second bias alone. -/
theorem layer1_kept (k : Fin 4) : after opsLayer1 Wp (Proc.devRef .tc (![main_v3, main_v6, main_v29, main_arg5] k))
    = Wp (Proc.devRef .tc (![main_v3, main_v6, main_v29, main_arg5] k)) := by
  simp only [opsLayer1, ops, List.drop_succ_cons, List.drop_zero, List.take_succ_cons, List.take_zero]
  fin_cases k <;> (after_results_simp <;> rfl)

/-! ## The second aggregation and its bias -/

set_option maxHeartbeats 4000000 in
theorem layer2_out : after opsLayer2 Wp (Proc.devRef .tc main_v64)
    = addf (Cert.Gcn.seg40 (Wp (Proc.devRef .tc main_v3)) (Wp (Proc.devRef .tc main_v6)) (Wp (Proc.devRef .tc main_v29)) (Wp (Proc.devRef .tc main_v48)))
        (broadcastInDim S100000x40 ![0, 1] bcast_S1x40_S100000x40_0_1 (Cert.Gcn.row40 (Wp (Proc.devRef .tc main_arg5)))) := by
  simp only [opsLayer2, ops, List.drop_succ_cons, List.drop_zero, List.take_succ_cons, List.take_zero]
  after_results_simp <;> rfl

/-! ## The row-wise log-softmax -/

set_option maxHeartbeats 4000000 in
theorem lsm_out : after opsLsm Wp (Proc.devRef .tc main_v65) = Cert.Gcn.logSoftmax (Wp (Proc.devRef .tc main_v64)) := by
  simp only [opsLsm, ops, List.drop_succ_cons, List.drop_zero]
  after_results_simp
  simp only [ofBuf_toBuf]
  rfl

/-! ## The whole line -/

/-- The host program's result, from any launch contents, is the network of its six arguments. -/
theorem result (Wp : Valuation τ sig (Elt F)) : after (ops (F := F)) Wp (Proc.devRef .tc main_v65)
    = Cert.Gcn.gcn (Wp (Proc.devRef .tc main_arg0)) (Wp (Proc.devRef .tc main_arg1)) (Wp (Proc.devRef .tc main_arg2))
        (Wp (Proc.devRef .tc main_arg3)) (Wp (Proc.devRef .tc main_arg4)) (Wp (Proc.devRef .tc main_arg5)) := by
  have k3 : after opsLayer1 (after opsEdges Wp) (Proc.devRef .tc main_v3) = after opsEdges Wp (Proc.devRef .tc main_v3) := layer1_kept _ 0
  have k6 : after opsLayer1 (after opsEdges Wp) (Proc.devRef .tc main_v6) = after opsEdges Wp (Proc.devRef .tc main_v6) := layer1_kept _ 1
  have k29 : after opsLayer1 (after opsEdges Wp) (Proc.devRef .tc main_v29) = after opsEdges Wp (Proc.devRef .tc main_v29) := layer1_kept _ 2
  have k5 : after opsLayer1 (after opsEdges Wp) (Proc.devRef .tc main_arg5) = after opsEdges Wp (Proc.devRef .tc main_arg5) := layer1_kept _ 3
  have a0 : after opsEdges Wp (Proc.devRef .tc main_arg0) = Wp (Proc.devRef .tc main_arg0) := edges_arg Wp 0
  have a2 : after opsEdges Wp (Proc.devRef .tc main_arg2) = Wp (Proc.devRef .tc main_arg2) := edges_arg Wp 2
  have a3 : after opsEdges Wp (Proc.devRef .tc main_arg3) = Wp (Proc.devRef .tc main_arg3) := edges_arg Wp 3
  have a4 : after opsEdges Wp (Proc.devRef .tc main_arg4) = Wp (Proc.devRef .tc main_arg4) := edges_arg Wp 4
  have a5 : after opsEdges Wp (Proc.devRef .tc main_arg5) = Wp (Proc.devRef .tc main_arg5) := edges_arg Wp 5
  rw [ops_split, StableHlo.after_append, StableHlo.after_append, StableHlo.after_append, lsm_out, layer2_out, layer1_out, k3, k6, k29, k5, a0, a2, a3, a4, a5,
    edges_src, edges_dst, edges_norm]
  rfl

end Cert.ReferenceIdeal.RefVal

end
-- ==== Proof.lean ====
/-
  A two-layer graph convolution — node features through x·W1, a degree-normalized aggregation along the edges, bias and
  clamp at zero, then ·W2, the same aggregation, bias and a row-wise log-softmax — computed by a tiled program (four
  tiled regions over twenty row blocks of 5000 nodes, the aggregations between them as plain array operations) and by
  one straight line of array operations. Over the extended reals the two end with the same 100000 × 40 table.

  Both programs build the edge lists and weights with the same operations, so those are carried as named functions and
  never opened (Proof/Spec.lean). Each tiled region is shown to leave in its output array the corresponding whole-array
  operation of the arrays it finds (Proof/Region0 … Region3: a row block's product, bias-and-clamp or log-softmax reads
  only that block's rows, and the blocks tile the rows); the tiled program's result is then read back through its run,
  boundary by boundary (Proof/KValue.lean over Proof/KHost.lean and Proof/KRun.lean), and the straight line's result
  through its own fold (Proof/RefValue.lean over Proof/RefRun.lean). No precondition is used: no step rearranges a sum
  or cancels a term, so infinite inputs change nothing.
-/
import proofs.«147935_j84670985273813_1_alg».proof.Defs
import proofs.«147935_j84670985273813_1_alg».proof.Proof.Gen.Kernel
import proofs.«147935_j84670985273813_1_alg».proof.Proof.Gen.Kernel.Frame
import proofs.«147935_j84670985273813_1_alg».proof.Proof.Gen.KernelIdeal
import proofs.«147935_j84670985273813_1_alg».proof.Proof.Gen.KernelIdeal.Frame
import proofs.«147935_j84670985273813_1_alg».proof.Proof.Gen.ReferenceIdeal
import proofs.«147935_j84670985273813_1_alg».proof.Proof.Gen.Pre_finite_inputs
import proofs.«147935_j84670985273813_1_alg».proof.Proof.KRun
import proofs.«147935_j84670985273813_1_alg».proof.Proof.KValue
import proofs.«147935_j84670985273813_1_alg».proof.Proof.RefRun
import proofs.«147935_j84670985273813_1_alg».proof.Proof.RefValue
import Idealize.ShloMosaic.Adequacy
import Idealize.ShloMosaic.Init

noncomputable section

namespace Cert.Proof

open Idealize.ShloMosaic Idealize.SL.Sem

/-- The tiled program, word level: it runs and keeps its arguments. -/
theorem frame_k : Cert.frame_Kernel := fun m ρ _ => Cert.Kernel.Gen.frame m ρ
/-- The tiled program over the extended reals: it runs and keeps its arguments. -/
theorem frame_ki : Cert.frame_KernelIdeal := fun m ρ _ => Cert.KernelIdeal.Gen.frame m ρ
/-- The straight line runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the network of their (agreeing) arguments in the result table. -/
theorem algebraic : Cert.algebraic_KernelIdeal_ReferenceIdeal := by
  intro m ρ m' ρ' _ hagree
  refine ⟨fun c => Cert.Gcn.gcn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KVal.result m ρ c), (h c).2⟩)
      (Cert.KernelIdeal.GenRun.run_result (F := Ideal) m ρ)
  · refine (θ_run Cert.ReferenceIdeal.defs _ _).mono (fun r h c => ⟨(h c).1.trans ?_, (h c).2⟩)
      (Cert.ReferenceIdeal.Value.run (F := Ideal) m' ρ')
    refine (Cert.ReferenceIdeal.RefVal.result (F := Ideal) (StableHlo.launchContents m' c)).trans ?_
    show Cert.Gcn.gcn (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = _
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
